-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x1x4096 : Shape := ⟨3, ![8, 1, 4096]⟩
abbrev S1x512x3 : Shape := ⟨3, ![1, 512, 3]⟩
abbrev S1x1x512 : Shape := ⟨3, ![1, 1, 512]⟩
abbrev S1x1x4096 : Shape := ⟨3, ![1, 1, 4096]⟩
abbrev S512 : Shape := ⟨1, ![512]⟩
abbrev S4096 : Shape := ⟨1, ![4096]⟩
abbrev S512x3 : Shape := ⟨2, ![512, 3]⟩
abbrev S512x512 : Shape := ⟨2, ![512, 512]⟩
abbrev S512x1 : Shape := ⟨2, ![512, 1]⟩
abbrev S1x512 : Shape := ⟨2, ![1, 512]⟩
abbrev S8x4096 : Shape := ⟨2, ![8, 4096]⟩
abbrev S_ : Shape := ⟨0, ![]⟩

abbrev nBuf : Space → Nat
  | .hbm => 19
  | .vmem => 8
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x1x4096, .f32⟩
  | .hbm, ⟨3, _⟩ => ⟨S8x1x4096, .f32⟩
  | .hbm, ⟨4, _⟩ => ⟨S8x4096, .f32⟩
  | .hbm, ⟨5, _⟩ => ⟨S8x4096, .f32⟩
  | .hbm, ⟨6, _⟩ => ⟨S8x4096, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8x4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S1x512x3, .f32⟩
  | .local _ .vmem, ⟨1, _⟩ => ⟨S1x512x3, .f32⟩
  | .local _ .vmem, ⟨2, _⟩ => ⟨S1x512x3, .f32⟩
  | .local _ .vmem, ⟨3, _⟩ => ⟨S1x512x3, .f32⟩
  | .local _ .vmem, ⟨4, _⟩ => ⟨S1x1x512, .f32⟩
  | .local _ .vmem, ⟨5, _⟩ => ⟨S1x1x512, .f32⟩
  | .local _ .vmem, ⟨6, _⟩ => ⟨S1x1x4096, .f32⟩
  | .local _ .vmem, ⟨7, _⟩ => ⟨S1x1x4096, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 8, 8], ![false, false, false]⟩

def k0_mult1 (i : grid0.Coords) : BitVec 32 :=
  let arg2 : BitVec 32 := BitVec.ofNat 32 (i 2).val
  let c512_i32 : BitVec 32 := 512#32
  let v35 : BitVec 32 := Scalar.muli arg2 c512_i32
  v35
def k0_off1 (i : grid0.Coords) : Fin 3 → Nat :=
  let c0_21 : Index := 0#32
  let c0_22 : Index := 0#32
  let arg2 : BitVec 32 := BitVec.ofNat 32 (i 2).val
  let c512_i32 : BitVec 32 := 512#32
  let v35 : BitVec 32 := Scalar.muli arg2 c512_i32
  let v36 : BitVec 32 := v35
  let v37 : Index := Scalar.indexCast v36
  ![0, 0, v37.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  shapeCasts_S512_S1x1x512 : S512.ShapeCasts S1x1x512
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S4096 : S1x1x4096.ShapeCasts S4096
  shapeCasts_S4096_S1x1x4096 : S4096.ShapeCasts S1x1x4096
  inb_S1x512x3_S1x512x3_0_0_0 : ∀ a, (![0, 0, 0] : Fin 3 → Nat) a + S1x512x3.size a ≤ S1x512x3.size a
  h_S1x512x3 : 0 < S1x512x3.numel
  shapeCasts_S1x512x3_S512x3 : S1x512x3.ShapeCasts S512x3
  reduces_S512x3_S512 : S512x3.Reduces [1] S512
  shapeCasts_S512_S512x1 : S512.ShapeCasts S512x1
  shapeCasts_S512_S1x512 : S512.ShapeCasts S1x512
  broadcasts_S512x1_S512x512 : S512x1.Broadcasts S512x512
  broadcasts_S1x512_S512x512 : S1x512.Broadcasts S512x512
  reduces_S512x512_S512 : S512x512.Reduces [1] S512
  reduces_S512x512_S512_2 : S512x512.Reduces [0] S512
  shapeCasts_S8x1x4096_S8x4096 : S8x1x4096.ShapeCasts S8x4096
  reducesTo_S8x4096_S_d0_1 : S8x4096.ReducesTo [0, 1] S_
  h_S_ : 0 < S_.numel
  dot_S512x3_S512x3_S512x512_1_1_0_0_n_n_wf : DotDims.WF S512x3 S512x3 S512x512 [1] [1] [0] [0] [] []
  hrank0 : 0 < grid0.rank
  k0_mult1_dvd : ∀ i : grid0.Coords, 512 ∣ (k0_mult1 i).toNat
  k0_off1_inb : ∀ i : grid0.Coords, ∀ a, (k0_off1 i) a + S1x1x512.size a ≤ S1x1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x3.size a ≤ S8x4096x3.size a
  hwx0_0 : ∀ i : grid0.Coords, EltTy.bits .f32 = 32 ∨ (Rect.block (s := S8x4096x3) S1x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x3.size a ≤ S8x4096x3.size a
  hwx0_1 : ∀ i : grid0.Coords, EltTy.bits .f32 = 32 ∨ (Rect.block (s := S8x4096x3) S1x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S8x1x4096.size a
  hwx0_2 : ∀ i : grid0.Coords, EltTy.bits .f32 = 32 ∨ (Rect.block (s := S8x1x4096) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4096.size a ≤ S8x1x4096.size a
  hwx0_3 : ∀ i : grid0.Coords, EltTy.bits .f32 = 32 ∨ (Rect.block (s := S8x1x4096) S1x1x4096.size (cc0_transform_3 i) (hinb0_3 i)).WholeWords (EltTy.packing .f32)

variable [Facts₀]

def dot_S512x3_S512x3_S512x512_1_1_0_0_n_n : DotDims S512x3 S512x3 S512x512 where
  lhsContracting := [1]
  rhsContracting := [1]
  lhsNonContracting := [0]
  rhsNonContracting := [0]
  lhsBatch := []
  rhsBatch := []
  wf := dot_S512x3_S512x3_S512x512_1_1_0_0_n_n_wf

abbrev win0_0 : Pipeline.Window sig grid0 :=
  Pipeline.Window.ofSpec (Memref.whole main_arg0) S1x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x1x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 38
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S_, .f32⟩
  | .hbm, ⟨24, _⟩ => ⟨S8x4096, .f32⟩
  | .hbm, ⟨25, _⟩ => ⟨S8x4096, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S8x4096, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  reducesTo_S8x4096x3_S8x4096_d2 : S8x4096x3.ReducesTo [2] S8x4096
  h_S_ : 0 < S_.numel
  bcast_S8x4096_S8x4096x1_0_1 : S8x4096.BroadcastsInDim S8x4096x1 (![0, 1] : Fin 2 → Fin S8x4096x1.rank)
  bcast_S8x4096_S8x1x4096_0_2 : S8x4096.BroadcastsInDim S8x1x4096 (![0, 2] : Fin 2 → Fin S8x1x4096.rank)
  bcast_S8x4096x1_S8x4096x4096_0_1_2 : S8x4096x1.BroadcastsInDim S8x4096x4096 (![0, 1, 2] : Fin 3 → Fin S8x4096x4096.rank)
  bcast_S8x1x4096_S8x4096x4096_0_1_2 : S8x1x4096.BroadcastsInDim S8x4096x4096 (![0, 1, 2] : Fin 3 → Fin S8x4096x4096.rank)
  bcast_S_S8x4096x4096 : S_.BroadcastsInDim S8x4096x4096 (![] : Fin 0 → Fin S8x4096x4096.rank)
  reducesTo_S8x4096x4096_S8x4096_d2 : S8x4096x4096.ReducesTo [2] S8x4096
  reducesTo_S8x4096x4096_S8x4096_d1 : S8x4096x4096.ReducesTo [1] S8x4096
  reducesTo_S8x4096_S_d0_1 : S8x4096.ReducesTo [0, 1] S_
  dot_S8x4096x3_S8x4096x3_S8x4096x4096_2_2_1_1_0_0_wf : DotDims.WF S8x4096x3 S8x4096x3 S8x4096x4096 [2] [2] [1] [1] [0] [0]

variable [Facts₀]

def dot_S8x4096x3_S8x4096x3_S8x4096x4096_2_2_1_1_0_0 : DotDims S8x4096x3 S8x4096x3 S8x4096x4096 where
  lhsContracting := [2]
  rhsContracting := [2]
  lhsNonContracting := [1]
  rhsNonContracting := [1]
  lhsBatch := [0]
  rhsBatch := [0]
  wf := dot_S8x4096x3_S8x4096x3_S8x4096x4096_2_2_1_1_0_0_wf

class Facts : Prop extends Facts₀ where

variable [Facts]
-- ==== Proof.LibOverlayWrites.lean ====
/-
  A buffer after a list of stores, read back as a pure function of what it held before.

  The contents after the stores `p :: L` (the last store first) read as the payload of `p` laid over what the
  contents after `L` read, on `p`'s rectangle (`Rect.overlay`) — whether or not the stores cover the buffer. So a
  buffer of which a point rewrites only a slice keeps a closed form: its earlier contents with the slice replaced. A
  store through the whole-shape rectangle replaces everything.
-/
import Idealize.ShloMosaic.Lib.Writes
import Idealize.ShloMosaic.Lib.Memref
import Idealize.ShloMosaic.Lib.Pipeline.Value

noncomputable section

namespace Idealize.ShloMosaic.View

variable {sig : RefSig} {κ : Kind} {sp : Space} {s : Shape} {e : EltTy} {Val : EltTy → Type}

/-- After the stores `p :: L` the buffer reads as `p`'s payload over what it read after `L`. -/
theorem read_writes_cons_overlay (v : View sig κ sp s e) (f : v.ty.Contents Val) (p : Piece Val s e) (L : List (Piece Val s e)) :
    v.read Val (v.writes Val f (p :: L)) = p.1.overlay (v.read Val (v.writes Val f L)) p.2 := by
  funext y
  by_cases hy : y ∈ p.1.set
  · obtain ⟨r, w⟩ := p
    obtain ⟨x, rfl⟩ : ∃ x, r.emb x = y := r.exists_idx_of_mem hy
    rw [read_writes_cons_emb]
    exact (r.overlay_emb _ w x).symm
  · rw [writes_cons, read_slice_write_of_not_mem p.1 _ _ _ (by rw [Rect.map_emb_univ]; exact hy)]
    exact (p.1.overlay_of_not_mem _ _ hy).symm

/-- With no store the buffer reads as it did. -/
theorem read_writes_nil (v : View sig κ sp s e) (f : v.ty.Contents Val) : v.read Val (v.writes Val f []) = v.read Val f := rfl

end Idealize.ShloMosaic.View

namespace Idealize.ShloMosaic.Rect

/-- A payload laid over the whole shape (the rectangle at zero offsets with the shape's own sizes) leaves only the
    payload. -/
theorem overlay_unit_zero {S : Shape} {α : Type} {off : Fin S.rank → Nat} (h : off = fun _ => 0)
    (inb : ∀ a, off a + S.size a ≤ S.size a) (X : S.Idx → α) (w : S.Idx → α) :
    (Rect.unit off S.size inb).overlay X w = w := by
  subst h; funext y
  have e := (Rect.whole S).overlay_emb X w y
  rw [Rect.emb_whole_apply] at e
  exact e

end Idealize.ShloMosaic.Rect

end
-- ==== Proof.KernelCases.lean ====
/-
  The kernel body at one grid point, as three Hoare triples over the staging buffers — one for each way the body's
  two conditionals can go.

  A point (b, ni, mi) of the 8 × 8 × 8 grid pairs the ni-th tile of 512 points of the first cloud with the mi-th tile
  of the second. The body forms the 512 × 512 tile of distances, then
    • lowers the FIRST output's block (512 running minima, one per point of the first tile) by each row's least
      value, starting from +∞ when mi = 0 (`newRow`), and
    • lowers the mi-th 512-slice of the SECOND output's block (4096 running minima, one per point of the second
      cloud) by each column's least value, the whole block starting from +∞ when ni = mi = 0 (`newCol`).
  The conditions are functions of the point alone; over the row-major numbering t = 64 b + 8 ni + mi of the points
  they are t % 8 = 0 and t % 64 = 0 (the second implies the first, so three cases arise).
  Each triple names exactly what both output buffers hold afterwards as a pure function of what the four buffers
  held before, at any float instance.
-/
import proofs.«102571_j11012296147710_1_alg».proof.Proof.Gen.Kernel.Frame
import proofs.«102571_j11012296147710_1_alg».proof.Proof.Gen.Kernel.Skeleton
import proofs.«102571_j11012296147710_1_alg».proof.Proof.LibOverlayWrites

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- The point begins a sweep over the second cloud's tiles (mi = 0): the body's first conditional. -/
abbrev startsRow (i : grid0.Coords) : Prop :=
  (Scalar.cmpi .ne (Scalar.extui (Scalar.cmpi .eq (BitVec.ofNat 32 (i 2).val) 0#32)) 0#32) = 1#1

/-- The point begins a batch (ni = mi = 0): the body's second conditional. -/
abbrev startsBatch (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- Over the row-major numbering of the points the first holds at the multiples of 8, -/
theorem startsRow_iff : ∀ t : Fin cfg0.N, startsRow (grid0.coords t) ↔ t.val % 8 = 0 :=
  (by decide +kernel : ∀ t : Fin grid0.N, startsRow (grid0.coords t) ↔ t.val % 8 = 0)

/-- and the second at the multiples of 64. -/
theorem startsBatch_iff : ∀ t : Fin cfg0.N, startsBatch (grid0.coords t) ↔ t.val % 64 = 0 :=
  (by decide +kernel : ∀ t : Fin grid0.N, startsBatch (grid0.coords t) ↔ t.val % 64 = 0)

/-! ## What the body leaves -/

/-- The 512-slice of the second output's block that the point rewrites: places mi·512 … mi·512 + 511. -/
abbrev sliceAt (i : grid0.Coords) : Rect S1x1x4096 :=
  Rect.unit (s := S1x1x4096) (k0_off1 i) S1x1x512.size (k0_off1_inb i)

/-- The first output's block after the point, over what it held (`base`): each running minimum lowered by its row's
    least distance in the tile. -/
def newRow (x0 x1 : Vec F S1x512x3 .f32) (base : Vec F S1x1x512 .f32) : Vec F S1x1x512 .f32 :=
  k0_pay1 (k0_pay6 x0 x1 base)

/-- The second output's block after the point, over what it held: the point's slice lowered by each column's least
    distance in the tile, every other place as it was. -/
def newCol (i : grid0.Coords) (x0 x1 : Vec F S1x512x3 .f32) (base : Vec F S1x1x4096 .f32) : Vec F S1x1x4096 .f32 :=
  (sliceAt i).overlay base (k0_pay2 (k0_pay5 x0 x1) (View.ld base (sliceAt i)))

theorem zeros3 : (![0, 0, 0] : Fin 3 → ℕ) = fun _ => 0 := by
  funext a; fin_cases a <;> rfl

/-! ## The three runs -/

set_option maxHeartbeats 1000000 in
/-- Neither conditional taken (mi ≠ 0): both blocks are lowered over what they held. -/
theorem run_carry (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (hc0 : ¬startsRow i) (hc1 : ¬startsBatch i)
    (x0 : Vec F S1x512x3 .f32) (x1 : Vec F S1x512x3 .f32) (xo2 : Vec F S1x1x512 .f32) (xo3 : Vec F S1x1x4096 .f32) :
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1 ∗ owns (c : Thread nD τ) arg5 fullShare (newRow x0 x1 xo2) ∗ owns (c : Thread nD τ) arg6 fullShare (newCol i x0 x1 xo3)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [View.read_writes_cons_overlay, Rect.overlay_unit_zero zeros3]
      sl_unfold_run_names
      simp only [View.readAt_eq_ld, harg3.read_unread, harg4.read_unread, harg5.read_unread, View.ld_unit_zero (S := S1x512x3) zeros3, View.ld_unit_zero (S := S1x1x512) zeros3]
      rfl
    iexists _; isplitr; swap; · iexact H3
    ipureintro
    rw [View.read_writes_cons_overlay, View.read_writes_nil]
    sl_unfold_run_names
    simp only [View.readAt_eq_ld, harg3.read_unread, harg4.read_unread, harg6.read_unread, View.ld_unit_zero (S := S1x512x3) zeros3]
    rfl

set_option maxHeartbeats 1000000 in
/-- The first conditional taken, the second not (mi = 0, ni ≠ 0): the first block restarts from +∞, whatever it held;
    the second is lowered over what it held. -/
theorem run_row (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (hc0 : startsRow i) (hc1 : ¬startsBatch i)
    (x0 : Vec F S1x512x3 .f32) (x1 : Vec F S1x512x3 .f32) (xo3 : Vec F S1x1x4096 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1 ∗ owns (c : Thread nD τ) arg5 fullShare (newRow x0 x1 (k0_pay3 (F := F))) ∗ owns (c : Thread nD τ) arg6 fullShare (newCol i x0 x1 xo3)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [View.read_writes_cons_overlay, Rect.overlay_unit_zero zeros3]
      sl_unfold_run_names
      simp only [View.readAt_eq_ld, harg3.read_unread, harg4.read_unread, View.ld_unit_zero (S := S1x512x3) zeros3, View.readCov_unit_zero (S := S1x1x512) _ zeros3]
      rfl
    iexists _; isplitr; swap; · iexact H3
    ipureintro
    rw [View.read_writes_cons_overlay, View.read_writes_nil]
    sl_unfold_run_names
    simp only [View.readAt_eq_ld, harg3.read_unread, harg4.read_unread, harg6.read_unread, View.ld_unit_zero (S := S1x512x3) zeros3]
    rfl

set_option maxHeartbeats 1000000 in
/-- Both conditionals taken (ni = mi = 0): both blocks restart from +∞, whatever they held. -/
theorem run_batch (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (hc0 : startsRow i) (hc1 : startsBatch i)
    (x0 : Vec F S1x512x3 .f32) (x1 : Vec F S1x512x3 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ owns (c : Thread nD τ) arg5 fullShare (newRow x0 x1 (k0_pay3 (F := F))) ∗ owns (c : Thread nD τ) arg6 fullShare (newCol i x0 x1 (k0_pay4 (F := F)))) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [View.read_writes_cons_overlay, Rect.overlay_unit_zero zeros3]
      sl_unfold_run_names
      simp only [View.readAt_eq_ld, harg3.read_unread, harg4.read_unread, View.ld_unit_zero (S := S1x512x3) zeros3, View.readCov_unit_zero (S := S1x1x512) _ zeros3]
      rfl
    iexists _; isplitr; swap; · iexact H3
    ipureintro
    sl_unfold_run_names
    rw [View.read_writes_cons_overlay, View.read_writes_cons_overlay, Rect.overlay_unit_zero zeros3]
    simp only [View.readAt_eq_ld, harg3.read_unread, harg4.read_unread, View.ld_unit_zero (S := S1x512x3) zeros3,
      View.read_writes_cons_overlay, Rect.overlay_unit_zero (S := S1x1x4096) zeros3]
    rfl

end Cert.Kernel.Body

end
-- ==== Proof.KernelBody.lean ====
/-
  The pipeline's proof data and the frame of the program, at any float instance.

  Point by point the two output blocks hold running minima. With the points numbered row-major, t = 64 b + 8 ni + mi:
  after point t the FIRST block is what the body makes (`newRow`) of +∞ when t % 8 = 0, and otherwise of what point
  t − 1 left (the block is written back only after t % 8 = 7, so between two such points its buffer is untouched);
  the SECOND block is what the body makes (`newCol`) of +∞ when t % 64 = 0 and otherwise of what point t − 1 left (it is
  written back only after t % 64 = 63). `outsAt` is this recursion, and the rest is the library's launch: the body
  obligation at each point by the three runs, and from it every weakly fair execution of the program terminates with
  each output array holding what the write-backs put there, the arguments unchanged, and the host operations after
  the call applied to those arrays.
-/
import proofs.«102571_j11012296147710_1_alg».proof.Proof.KernelCases

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's staging buffer at point `t`, as the pipeline hands it to the body, and that it is a whole buffer. -/
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

/-! ## What the two output blocks hold after each point -/

/-- The two output blocks after the point numbered `n`: the body's result over +∞ at the points that restart a block,
    over what point `n − 1` left at the others. -/
def outsAt (c : Dev nD) : (n : ℕ) → n < cfg0.N → Vec F S1x1x512 .f32 × Vec F S1x1x4096 .f32
  | 0, hn =>
    (newRow (iblk m c 0 ⟨0, hn⟩) (iblk m c 1 ⟨0, hn⟩) (k0_pay3 (F := F)),
     newCol (grid0.coords ⟨0, hn⟩) (iblk m c 0 ⟨0, hn⟩) (iblk m c 1 ⟨0, hn⟩) (k0_pay4 (F := F)))
  | n + 1, hn =>
    (newRow (iblk m c 0 ⟨n + 1, hn⟩) (iblk m c 1 ⟨n + 1, hn⟩)
        (if (n + 1) % 8 = 0 then k0_pay3 (F := F) else (outsAt c n (Nat.lt_of_succ_lt hn)).1),
     newCol (grid0.coords ⟨n + 1, hn⟩) (iblk m c 0 ⟨n + 1, hn⟩) (iblk m c 1 ⟨n + 1, hn⟩)
        (if (n + 1) % 64 = 0 then k0_pay4 (F := F) else (outsAt c n (Nat.lt_of_succ_lt hn)).2))

/-- The recursion at any point, in one equation. -/
theorem outsAt_eq (c : Dev nD) (t : Fin cfg0.N) :
    outsAt m c t.val t.isLt
      = (newRow (iblk m c 0 t) (iblk m c 1 t)
          (if t.val % 8 = 0 then k0_pay3 (F := F) else (outsAt m c (t.val - 1) (Nat.lt_of_le_of_lt (Nat.sub_le _ _) t.isLt)).1),
         newCol (grid0.coords t) (iblk m c 0 t) (iblk m c 1 t)
          (if t.val % 64 = 0 then k0_pay4 (F := F) else (outsAt m c (t.val - 1) (Nat.lt_of_le_of_lt (Nat.sub_le _ _) t.isLt)).2)) := by
  obtain ⟨n, hn⟩ := t
  cases n with
  | zero => rfl
  | succ n => rfl

/-! ## The proof data -/

/-- The proof data of the pipeline on core `c`: the arrays as the call finds them; after the body at point `t` each
    input's buffer at its block and the two outputs' at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each input's buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a point that does not restart the first block, its buffer holds what the point before left: the point is not
    the first and the buffer was not written back between (that happens only after points with t % 8 = 7). -/
theorem before2_carry (c : Dev nD) (t : Fin cfg0.N) (h0 : ¬t.val % 8 = 0) (d) :
    (dats m 0 c).before 2 t d = (outsAt m c (t.val - 1) (Nat.lt_of_le_of_lt (Nat.sub_le _ _) t.isLt)).1 := by
  have hN : t.val < 512 := lt_of_lt_of_eq t.isLt (show cfg0.N = 512 from N_0)
  rw [Dat.before_out_kept _ 2 rfl t (by omega) (Bool.eq_false_iff.mpr fun h => by have := (flush0_2 _).mp h; dsimp only at this; omega)
    (fun _ => rfl) (fun _ _ => rfl)]
  dsimp only [dats]

/-- At a point that does not restart the second block, its buffer holds what the point before left (it is written
    back only after points with t % 64 = 63). -/
theorem before3_carry (c : Dev nD) (t : Fin cfg0.N) (h1 : ¬t.val % 64 = 0) (d) :
    (dats m 0 c).before 3 t d = (outsAt m c (t.val - 1) (Nat.lt_of_le_of_lt (Nat.sub_le _ _) t.isLt)).2 := by
  have hN : t.val < 512 := lt_of_lt_of_eq t.isLt (show cfg0.N = 512 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1200000 in
/-- The body at any point: the inputs' buffers hold their blocks; the point's number decides which of the three runs
    applies; an output block the run reads holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, outsAt_eq m c t]
  dsimp only
  by_cases h0 : t.val % 8 = 0
  · by_cases h1 : t.val % 64 = 0
    · rw [if_pos h0, if_pos h1]
      iintro ⟨HΦ, Ho, ⟨%d0, H0⟩, ⟨%d1, H1⟩, ⟨%d2, H2⟩, ⟨%d3, H3⟩⟩
      iapply ((run_batch c (grid0.coords t) _ _ _ _ _ _ _ _ ((startsRow_iff t).mpr h0) ((startsBatch_iff t).mpr h1) (iblk m c 0 t) (iblk m c 1 t)) Set.univ _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [if_pos h0, if_neg h1]
      simp only [before3_carry m c t h1]
      iintro ⟨HΦ, Ho, ⟨%d0, H0⟩, ⟨%d1, H1⟩, ⟨%d2, H2⟩, ⟨%d3, H3⟩⟩
      iapply ((run_row c (grid0.coords t) _ _ _ _ _ _ _ _ ((startsRow_iff t).mpr h0) (fun h => h1 ((startsBatch_iff t).mp h)) (iblk m c 0 t) (iblk m c 1 t) _) Set.univ _)
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · have h1 : ¬t.val % 64 = 0 := by omega
    rw [if_neg h0, if_neg h1]
    simp only [before2_carry m c t h0, before3_carry m c t h1]
    iintro ⟨HΦ, Ho, ⟨%d0, H0⟩, ⟨%d1, H1⟩, ⟨%d2, H2⟩, ⟨%d3, H3⟩⟩
    iapply ((run_carry c (grid0.coords t) _ _ _ _ _ _ _ _ (fun h => h0 ((startsRow_iff t).mp h)) (fun h => h1 ((startsBatch_iff t).mp h)) (iblk m c 0 t) (iblk m c 1 t) _ _) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates; in every final state
    each array of the pipeline holds what the library computes from the proof data (an input its contents at entry,
    an output those overwritten by what the body left at each write-back), and every other buffer what the host
    operations after the call make of those arrays. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.KernelIdealCases.lean ====
/-
  The kernel body at one grid point, as three Hoare triples over the staging buffers — one for each way the body's
  two conditionals can go.

  A point (b, ni, mi) of the 8 × 8 × 8 grid pairs the ni-th tile of 512 points of the first cloud with the mi-th tile
  of the second. The body forms the 512 × 512 tile of distances, then
    • lowers the FIRST output's block (512 running minima, one per point of the first tile) by each row's least
      value, starting from +∞ when mi = 0 (`newRow`), and
    • lowers the mi-th 512-slice of the SECOND output's block (4096 running minima, one per point of the second
      cloud) by each column's least value, the whole block starting from +∞ when ni = mi = 0 (`newCol`).
  The conditions are functions of the point alone; over the row-major numbering t = 64 b + 8 ni + mi of the points
  they are t % 8 = 0 and t % 64 = 0 (the second implies the first, so three cases arise).
  Each triple names exactly what both output buffers hold afterwards as a pure function of what the four buffers
  held before, at any float instance.
-/
import proofs.«102571_j11012296147710_1_alg».proof.Proof.Gen.KernelIdeal.Frame
import proofs.«102571_j11012296147710_1_alg».proof.Proof.Gen.KernelIdeal.Skeleton
import proofs.«102571_j11012296147710_1_alg».proof.Proof.LibOverlayWrites

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions -/

/-- The point begins a sweep over the second cloud's tiles (mi = 0): the body's first conditional. -/
abbrev startsRow (i : grid0.Coords) : Prop :=
  (Scalar.cmpi .ne (Scalar.extui (Scalar.cmpi .eq (BitVec.ofNat 32 (i 2).val) 0#32)) 0#32) = 1#1

/-- The point begins a batch (ni = mi = 0): the body's second conditional. -/
abbrev startsBatch (i : grid0.Coords) : Prop :=
  (Scalar.cmpi .ne (Scalar.extui (Scalar.andi (Scalar.cmpi .eq (BitVec.ofNat 32 (i 1).val) 0#32) (Scalar.cmpi .eq (BitVec.ofNat 32 (i 2).val) 0#32))) 0#32) = 1#1

/-- Over the row-major numbering of the points the first holds at the multiples of 8, -/
theorem startsRow_iff : ∀ t : Fin cfg0.N, startsRow (grid0.coords t) ↔ t.val % 8 = 0 :=
  (by decide +kernel : ∀ t : Fin grid0.N, startsRow (grid0.coords t) ↔ t.val % 8 = 0)

/-- and the second at the multiples of 64. -/
theorem startsBatch_iff : ∀ t : Fin cfg0.N, startsBatch (grid0.coords t) ↔ t.val % 64 = 0 :=
  (by decide +kernel : ∀ t : Fin grid0.N, startsBatch (grid0.coords t) ↔ t.val % 64 = 0)

/-! ## What the body leaves -/

/-- The 512-slice of the second output's block that the point rewrites: places mi·512 … mi·512 + 511. -/
abbrev sliceAt (i : grid0.Coords) : Rect S1x1x4096 :=
  Rect.unit (s := S1x1x4096) (k0_off1 i) S1x1x512.size (k0_off1_inb i)

/-- The first output's block after the point, over what it held (`base`): each running minimum lowered by its row's
    least distance in the tile. -/
def newRow (x0 x1 : Vec F S1x512x3 .f32) (base : Vec F S1x1x512 .f32) : Vec F S1x1x512 .f32 :=
  k0_pay1 (k0_pay6 x0 x1 base)

/-- The second output's block after the point, over what it held: the point's slice lowered by each column's least
    distance in the tile, every other place as it was. -/
def newCol (i : grid0.Coords) (x0 x1 : Vec F S1x512x3 .f32) (base : Vec F S1x1x4096 .f32) : Vec F S1x1x4096 .f32 :=
  (sliceAt i).overlay base (k0_pay2 (k0_pay5 x0 x1) (View.ld base (sliceAt i)))

theorem zeros3 : (![0, 0, 0] : Fin 3 → ℕ) = fun _ => 0 := by
  funext a; fin_cases a <;> rfl

/-! ## The three runs -/

set_option maxHeartbeats 1000000 in
/-- Neither conditional taken (mi ≠ 0): both blocks are lowered over what they held. -/
theorem run_carry (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (hc0 : ¬startsRow i) (hc1 : ¬startsBatch i)
    (x0 : Vec F S1x512x3 .f32) (x1 : Vec F S1x512x3 .f32) (xo2 : Vec F S1x1x512 .f32) (xo3 : Vec F S1x1x4096 .f32) :
      ∀ (E : Set ℕ) (K : PUnit → sProp 𝕄),
        iprop(owns (c : Thread nD τ) arg3 fullShare x0 ∗ owns (c : Thread nD τ) arg4 fullShare x1 ∗ owns (c : Thread nD τ) arg5 fullShare xo2 ∗ owns (c : Thread nD τ) arg6 fullShare xo3
            ∗ (iprop(owns (c : Thread nD τ) arg3 fullShare x0 ∗ owns (c : Thread nD τ) arg4 fullShare x1 ∗ owns (c : Thread nD τ) arg5 fullShare (newRow x0 x1 xo2) ∗ owns (c : Thread nD τ) arg6 fullShare (newCol i x0 x1 xo3)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [View.read_writes_cons_overlay, Rect.overlay_unit_zero zeros3]
      sl_unfold_run_names
      simp only [View.readAt_eq_ld, harg3.read_unread, harg4.read_unread, harg5.read_unread, View.ld_unit_zero (S := S1x512x3) zeros3, View.ld_unit_zero (S := S1x1x512) zeros3]
      rfl
    iexists _; isplitr; swap; · iexact H3
    ipureintro
    rw [View.read_writes_cons_overlay, View.read_writes_nil]
    sl_unfold_run_names
    simp only [View.readAt_eq_ld, harg3.read_unread, harg4.read_unread, harg6.read_unread, View.ld_unit_zero (S := S1x512x3) zeros3]
    rfl

set_option maxHeartbeats 1000000 in
/-- The first conditional taken, the second not (mi = 0, ni ≠ 0): the first block restarts from +∞, whatever it held;
    the second is lowered over what it held. -/
theorem run_row (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (hc0 : startsRow i) (hc1 : ¬startsBatch i)
    (x0 : Vec F S1x512x3 .f32) (x1 : Vec F S1x512x3 .f32) (xo3 : Vec F S1x1x4096 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xo3
            ∗ (iprop(owns (c : Thread nD τ) arg3 fullShare x0 ∗ owns (c : Thread nD τ) arg4 fullShare x1 ∗ owns (c : Thread nD τ) arg5 fullShare (newRow x0 x1 (k0_pay3 (F := F))) ∗ owns (c : Thread nD τ) arg6 fullShare (newCol i x0 x1 xo3)) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%f3, %hf3, H3⟩, Hk⟩
    obtain rfl := harg3.eq_unread hf0; obtain rfl := harg4.eq_unread hf1
    obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [View.read_writes_cons_overlay, Rect.overlay_unit_zero zeros3]
      sl_unfold_run_names
      simp only [View.readAt_eq_ld, harg3.read_unread, harg4.read_unread, View.ld_unit_zero (S := S1x512x3) zeros3, View.readCov_unit_zero (S := S1x1x512) _ zeros3]
      rfl
    iexists _; isplitr; swap; · iexact H3
    ipureintro
    rw [View.read_writes_cons_overlay, View.read_writes_nil]
    sl_unfold_run_names
    simp only [View.readAt_eq_ld, harg3.read_unread, harg4.read_unread, harg6.read_unread, View.ld_unit_zero (S := S1x512x3) zeros3]
    rfl

set_option maxHeartbeats 1000000 in
/-- Both conditionals taken (ni = mi = 0): both blocks restart from +∞, whatever they held. -/
theorem run_batch (c : Dev nD) (i : grid0.Coords) (arg3 : Memref sig .tc .vmem S1x512x3 .f32) (harg3 : arg3.IsWhole) (arg4 : Memref sig .tc .vmem S1x512x3 .f32) (harg4 : arg4.IsWhole) (arg5 : Memref sig .tc .vmem S1x1x512 .f32) (harg5 : arg5.IsWhole) (arg6 : Memref sig .tc .vmem S1x1x4096 .f32) (harg6 : arg6.IsWhole) (hc0 : startsRow i) (hc1 : startsBatch i)
    (x0 : Vec F S1x512x3 .f32) (x1 : Vec F S1x512x3 .f32) :
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ owns (c : Thread nD τ) arg5 fullShare (newRow x0 x1 (k0_pay3 (F := F))) ∗ owns (c : Thread nD τ) arg6 fullShare (newCol i x0 x1 (k0_pay4 (F := F)))) -∗ K ⟨⟩))
          ⊢ wp frame (wpE (defs₀ (F := F)) Variants.none c none) E (cc0__chamfer_kernel i arg3 harg3 arg4 harg4 arg5 harg5 arg6 harg6) K := by
    intro E K
    simp only [cc0__chamfer_kernel_eq_skeleton]; unfold cc0__chamfer_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; swap; · iexact H2
      ipureintro
      rw [View.read_writes_cons_overlay, Rect.overlay_unit_zero zeros3]
      sl_unfold_run_names
      simp only [View.readAt_eq_ld, harg3.read_unread, harg4.read_unread, View.ld_unit_zero (S := S1x512x3) zeros3, View.readCov_unit_zero (S := S1x1x512) _ zeros3]
      rfl
    iexists _; isplitr; swap; · iexact H3
    ipureintro
    sl_unfold_run_names
    rw [View.read_writes_cons_overlay, View.read_writes_cons_overlay, Rect.overlay_unit_zero zeros3]
    simp only [View.readAt_eq_ld, harg3.read_unread, harg4.read_unread, View.ld_unit_zero (S := S1x512x3) zeros3,
      View.read_writes_cons_overlay, Rect.overlay_unit_zero (S := S1x1x4096) zeros3]
    rfl

end Cert.KernelIdeal.Body

end
-- ==== Proof.KernelIdealBody.lean ====
/-
  The pipeline's proof data and the frame of the program, at any float instance.

  Point by point the two output blocks hold running minima. With the points numbered row-major, t = 64 b + 8 ni + mi:
  after point t the FIRST block is what the body makes (`newRow`) of +∞ when t % 8 = 0, and otherwise of what point
  t − 1 left (the block is written back only after t % 8 = 7, so between two such points its buffer is untouched);
  the SECOND block is what the body makes (`newCol`) of +∞ when t % 64 = 0 and otherwise of what point t − 1 left (it is
  written back only after t % 64 = 63). `outsAt` is this recursion, and the rest is the library's launch: the body
  obligation at each point by the three runs, and from it every weakly fair execution of the program terminates with
  each output array holding what the write-backs put there, the arguments unchanged, and the host operations after
  the call applied to those arrays.
-/
import proofs.«102571_j11012296147710_1_alg».proof.Proof.KernelIdealCases

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's staging buffer at point `t`, as the pipeline hands it to the body, and that it is a whole buffer. -/
abbrev ms0 (t : Fin cfg0.N) : Memref sig .tc .vmem S1x512x3 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x512x3 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1x4096 .f32 := win0_3.stage (cfg0.slots t 3)
abbrev hs3 (t : Fin cfg0.N) : (ms3 t).IsWhole := hstage0_3 ((cfg0.slots t 3).cast nbuf0_3)

/-! ## What the two output blocks hold after each point -/

/-- The two output blocks after the point numbered `n`: the body's result over +∞ at the points that restart a block,
    over what point `n − 1` left at the others. -/
def outsAt (c : Dev nD) : (n : ℕ) → n < cfg0.N → Vec F S1x1x512 .f32 × Vec F S1x1x4096 .f32
  | 0, hn =>
    (newRow (iblk m c 0 ⟨0, hn⟩) (iblk m c 1 ⟨0, hn⟩) (k0_pay3 (F := F)),
     newCol (grid0.coords ⟨0, hn⟩) (iblk m c 0 ⟨0, hn⟩) (iblk m c 1 ⟨0, hn⟩) (k0_pay4 (F := F)))
  | n + 1, hn =>
    (newRow (iblk m c 0 ⟨n + 1, hn⟩) (iblk m c 1 ⟨n + 1, hn⟩)
        (if (n + 1) % 8 = 0 then k0_pay3 (F := F) else (outsAt c n (Nat.lt_of_succ_lt hn)).1),
     newCol (grid0.coords ⟨n + 1, hn⟩) (iblk m c 0 ⟨n + 1, hn⟩) (iblk m c 1 ⟨n + 1, hn⟩)
        (if (n + 1) % 64 = 0 then k0_pay4 (F := F) else (outsAt c n (Nat.lt_of_succ_lt hn)).2))

/-- The recursion at any point, in one equation. -/
theorem outsAt_eq (c : Dev nD) (t : Fin cfg0.N) :
    outsAt m c t.val t.isLt
      = (newRow (iblk m c 0 t) (iblk m c 1 t)
          (if t.val % 8 = 0 then k0_pay3 (F := F) else (outsAt m c (t.val - 1) (Nat.lt_of_le_of_lt (Nat.sub_le _ _) t.isLt)).1),
         newCol (grid0.coords t) (iblk m c 0 t) (iblk m c 1 t)
          (if t.val % 64 = 0 then k0_pay4 (F := F) else (outsAt m c (t.val - 1) (Nat.lt_of_le_of_lt (Nat.sub_le _ _) t.isLt)).2)) := by
  obtain ⟨n, hn⟩ := t
  cases n with
  | zero => rfl
  | succ n => rfl

/-! ## The proof data -/

/-- The proof data of the pipeline on core `c`: the arrays as the call finds them; after the body at point `t` each
    input's buffer at its block and the two outputs' at `outsAt`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt m c t.val t.isLt).1
    | ⟨3, _⟩ => (outsAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = (outsAt m c t.val t.isLt).1 := by dsimp only [dats]
theorem after3 (c : Dev nD) (t : Fin cfg0.N) : (dats m 0 c).after 3 t = (outsAt m c t.val t.isLt).2 := by dsimp only [dats]

/-- Each input's buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-- At a point that does not restart the first block, its buffer holds what the point before left: the point is not
    the first and the buffer was not written back between (that happens only after points with t % 8 = 7). -/
theorem before2_carry (c : Dev nD) (t : Fin cfg0.N) (h0 : ¬t.val % 8 = 0) (d) :
    (dats m 0 c).before 2 t d = (outsAt m c (t.val - 1) (Nat.lt_of_le_of_lt (Nat.sub_le _ _) t.isLt)).1 := by
  have hN : t.val < 512 := lt_of_lt_of_eq t.isLt (show cfg0.N = 512 from N_0)
  rw [Dat.before_out_kept _ 2 rfl t (by omega) (Bool.eq_false_iff.mpr fun h => by have := (flush0_2 _).mp h; dsimp only at this; omega)
    (fun _ => rfl) (fun _ _ => rfl)]
  dsimp only [dats]

/-- At a point that does not restart the second block, its buffer holds what the point before left (it is written
    back only after points with t % 64 = 63). -/
theorem before3_carry (c : Dev nD) (t : Fin cfg0.N) (h1 : ¬t.val % 64 = 0) (d) :
    (dats m 0 c).before 3 t d = (outsAt m c (t.val - 1) (Nat.lt_of_le_of_lt (Nat.sub_le _ _) t.isLt)).2 := by
  have hN : t.val < 512 := lt_of_lt_of_eq t.isLt (show cfg0.N = 512 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t))

set_option maxHeartbeats 1200000 in
/-- The body at any point: the inputs' buffers hold their blocks; the point's number decides which of the three runs
    applies; an output block the run reads holds what the point before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3, outsAt_eq m c t]
  dsimp only
  by_cases h0 : t.val % 8 = 0
  · by_cases h1 : t.val % 64 = 0
    · rw [if_pos h0, if_pos h1]
      iintro ⟨HΦ, Ho, ⟨%d0, H0⟩, ⟨%d1, H1⟩, ⟨%d2, H2⟩, ⟨%d3, H3⟩⟩
      iapply ((run_batch c (grid0.coords t) _ _ _ _ _ _ _ _ ((startsRow_iff t).mpr h0) ((startsBatch_iff t).mpr h1) (iblk m c 0 t) (iblk m c 1 t)) Set.univ _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · rw [if_pos h0, if_neg h1]
      simp only [before3_carry m c t h1]
      iintro ⟨HΦ, Ho, ⟨%d0, H0⟩, ⟨%d1, H1⟩, ⟨%d2, H2⟩, ⟨%d3, H3⟩⟩
      iapply ((run_row c (grid0.coords t) _ _ _ _ _ _ _ _ ((startsRow_iff t).mpr h0) (fun h => h1 ((startsBatch_iff t).mp h)) (iblk m c 0 t) (iblk m c 1 t) _) Set.univ _)
      isplitl [H0]; · iexact H0
      isplitl [H1]; · iexact H1
      isplitl [H2]; · iexists _; iexact H2
      isplitl [H3]; · iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
  · have h1 : ¬t.val % 64 = 0 := by omega
    rw [if_neg h0, if_neg h1]
    simp only [before2_carry m c t h0, before3_carry m c t h1]
    iintro ⟨HΦ, Ho, ⟨%d0, H0⟩, ⟨%d1, H1⟩, ⟨%d2, H2⟩, ⟨%d3, H3⟩⟩
    iapply ((run_carry c (grid0.coords t) _ _ _ _ _ _ _ _ (fun h => h0 ((startsRow_iff t).mp h)) (fun h => h1 ((startsBatch_iff t).mp h)) (iblk m c 0 t) (iblk m c 1 t) _ _) Set.univ _)
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates; in every final state
    each array of the pipeline holds what the library computes from the proof data (an input its contents at entry,
    an output those overwritten by what the body left at each write-back), and every other buffer what the host
    operations after the call make of those arrays. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The mathematics both programs compute, on the extended reals, with no program in sight.

  For two clouds of points of three coordinates, the distance between a point of one and a point of the other is the
  larger of zero and |u|² + |v|² − 2·⟨u, v⟩ (`pairDist`). The first result array holds, for each point of the first
  cloud, the least such distance over the second cloud (`nearest1`); the second array, for each point of the second
  cloud, the least over the first (`nearest2`). A least value over 4096 points is taken either at once or tile by
  tile, eight tiles of 512, keeping a running minimum that starts at +∞: the lemmas below say these agree, using only
  that `min` is associative, commutative and idempotent with +∞ neutral. No inequality between finite and infinite
  values is used, so nothing here asks the inputs to be finite.
-/
import Idealize.ShloMosaic.PureOps.Ideal
import Mathlib.Order.Interval.Finset.Fin
import Mathlib.Data.Finset.Lattice.Fold

noncomputable section

namespace Cert.Chamfer

open Idealize.ShloMosaic

/-- The larger of `zero` and `|u|² + |v|² − two · ⟨u, v⟩`. The words `zero` and `two` are parameters: each program
    supplies the same literal for them and neither is ever evaluated. Each square and the inner product is the plain
    sum of the three products. -/
def pairDist (zero two : EReal) (u v : Fin 3 → EReal) : EReal :=
  max (((∑ k, u k * u k) + (∑ k, v k * v k)) - two * (∑ k, u k * v k)) zero

/-- Position `q * 512 + s` of an axis of 4096, from its tile `q` and its place `s` in the tile. -/
def tileIdx (q : Fin 8) (s : Fin 512) : Fin 4096 := ⟨q.val * 512 + s.val, by omega⟩

theorem tileIdx_val (q : Fin 8) (s : Fin 512) : (tileIdx q s).val = q.val * 512 + s.val := rfl

/-- Every position of the long axis is a place in a tile. -/
theorem exists_tileIdx (j : Fin 4096) : ∃ q s, j = tileIdx q s :=
  ⟨⟨j.val / 512, by omega⟩, ⟨j.val % 512, Nat.mod_lt _ (by decide)⟩, Fin.ext (by simp only [tileIdx_val]; omega)⟩

theorem tileIdx_inj {q q' : Fin 8} {s s' : Fin 512} (h : tileIdx q s = tileIdx q' s') : q = q' ∧ s = s' := by
  have := congrArg Fin.val h
  simp only [tileIdx_val] at this
  exact ⟨Fin.ext (by omega), Fin.ext (by omega)⟩

/-- The least value over the long axis is the least, over the eight tiles, of each tile's least value. -/
theorem inf_univ_eq_inf_tiles (f : Fin 4096 → EReal) :
    (Finset.univ : Finset (Fin 4096)).inf f
      = (Finset.univ : Finset (Fin 8)).inf fun q => (Finset.univ : Finset (Fin 512)).inf fun s => f (tileIdx q s) := by
  apply le_antisymm
  · refine Finset.le_inf fun q _ => Finset.le_inf fun s _ => Finset.inf_le (Finset.mem_univ _)
  · refine Finset.le_inf fun j _ => ?_
    obtain ⟨q, s, rfl⟩ := exists_tileIdx j
    exact (Finset.inf_le (Finset.mem_univ q)).trans (Finset.inf_le (Finset.mem_univ s))

/-! ## A running minimum over the tiles -/

/-- The least of `g` over the tiles up to and including tile `k`. -/
def upTo (k : ℕ) (g : Fin 8 → EReal) : EReal := (Finset.univ.filter fun q : Fin 8 => q.val ≤ k).inf g

/-- The least of `g` over the tiles strictly before tile `k`; +∞ when there is none. -/
def before (k : ℕ) (g : Fin 8 → EReal) : EReal := (Finset.univ.filter fun q : Fin 8 => q.val < k).inf g

theorem before_zero (g : Fin 8 → EReal) : before 0 g = ⊤ := by
  unfold before
  rw [Finset.filter_false_of_mem (fun q _ => Nat.not_lt_zero _), Finset.inf_empty]

theorem before_succ (k : ℕ) (hk : k < 8) (g : Fin 8 → EReal) : before (k + 1) g = min (before k g) (g ⟨k, hk⟩) := by
  unfold before
  have : (Finset.univ.filter fun q : Fin 8 => q.val < k + 1) = insert ⟨k, hk⟩ (Finset.univ.filter fun q : Fin 8 => q.val < k) := by
    ext q
    simp only [Finset.mem_filter, Finset.mem_univ, true_and, Finset.mem_insert, Fin.ext_iff]
    omega
  rw [this, Finset.inf_insert, inf_comm]

theorem before_eight (g : Fin 8 → EReal) : before 8 g = Finset.univ.inf g := by
  unfold before
  rw [Finset.filter_true_of_mem (fun q _ => q.isLt)]

theorem upTo_eq_before_succ (k : ℕ) (g : Fin 8 → EReal) : upTo k g = before (k + 1) g := by
  unfold upTo before
  exact congrArg (fun s => Finset.inf s g) (Finset.filter_congr fun q _ => Nat.lt_succ_iff.symm)

/-- Tile 0 alone: the running minimum from +∞ after the first tile. -/
theorem upTo_zero (g : Fin 8 → EReal) : upTo 0 g = min ⊤ (g 0) := by
  rw [upTo_eq_before_succ, before_succ 0 (by decide), before_zero]
  rfl

theorem upTo_succ (k : ℕ) (hk : k + 1 < 8) (g : Fin 8 → EReal) : upTo (k + 1) g = min (upTo k g) (g ⟨k + 1, hk⟩) := by
  rw [upTo_eq_before_succ, before_succ (k + 1) hk, ← upTo_eq_before_succ]

theorem upTo_seven (g : Fin 8 → EReal) : upTo 7 g = Finset.univ.inf g := by
  rw [upTo_eq_before_succ, before_eight]

/-! ## The literal words the two programs share -/

/-- The words 0.0, 2.0 and +∞ of the 32-bit format, as extended reals. Only +∞ is ever evaluated (it is the top element). -/
abbrev zeroW : EReal := Ideal.ofBits .f32 0x00000000#32
abbrev twoW : EReal := Ideal.ofBits .f32 0x40000000#32
abbrev infW : EReal := Ideal.ofBits .f32 0x7F800000#32

theorem infW_eq_top : infW = ⊤ := by
  simp [infW, Ideal.ofBits, Ideal.ieee]

/-! ## The two result arrays -/

variable (zero two : EReal) (a1 a2 : Fin 8 → Fin 4096 → Fin 3 → EReal)

/-- The distance between point `n` of the first cloud and point `m` of the second, in batch `b`. -/
def dist (b : Fin 8) (n m : Fin 4096) : EReal := pairDist zero two (a1 b n) (a2 b m)

/-- For point `n` of the first cloud, the least distance to a point of the second. -/
def nearest1 (b : Fin 8) (n : Fin 4096) : EReal := (Finset.univ : Finset (Fin 4096)).inf fun m => dist zero two a1 a2 b n m

/-- For point `m` of the second cloud, the least distance to a point of the first. -/
def nearest2 (b : Fin 8) (m : Fin 4096) : EReal := (Finset.univ : Finset (Fin 4096)).inf fun n => dist zero two a1 a2 b n m

/-- One tile's least value along the second cloud: rows `ni`-th tile's row `r` against the `q`-th tile of columns. -/
def rowTileMin (b : Fin 8) (ni : Fin 8) (r : Fin 512) (q : Fin 8) : EReal :=
  (Finset.univ : Finset (Fin 512)).inf fun s => dist zero two a1 a2 b (tileIdx ni r) (tileIdx q s)

/-- One tile's least value along the first cloud: column `s` of the `q`-th tile of columns against the `ni`-th tile of rows. -/
def colTileMin (b : Fin 8) (q : Fin 8) (s : Fin 512) (ni : Fin 8) : EReal :=
  (Finset.univ : Finset (Fin 512)).inf fun r => dist zero two a1 a2 b (tileIdx ni r) (tileIdx q s)

theorem nearest1_eq (b : Fin 8) (ni : Fin 8) (r : Fin 512) :
    nearest1 zero two a1 a2 b (tileIdx ni r) = Finset.univ.inf (rowTileMin zero two a1 a2 b ni r) :=
  inf_univ_eq_inf_tiles _

theorem nearest2_eq (b : Fin 8) (q : Fin 8) (s : Fin 512) :
    nearest2 zero two a1 a2 b (tileIdx q s) = Finset.univ.inf (colTileMin zero two a1 a2 b q s) :=
  inf_univ_eq_inf_tiles _

end Cert.Chamfer

end
-- ==== Proof.Payloads.lean ====
/-
  The body's arithmetic read at an index, on the extended reals.

  Each payload of the kernel body (the tile of distances, the row-wise and column-wise running minima, the two +∞
  blocks) at one index, as the plain formula over the entries of the two 512 × 3 blocks it was computed from.
-/
import proofs.«102571_j11012296147710_1_alg».proof.Proof.Gen.KernelIdeal.Skeleton
import proofs.«102571_j11012296147710_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

set_option maxRecDepth 16384

noncomputable section

namespace Cert.KernelIdeal.Nearest

open Cert.KernelIdeal Cert.KernelIdeal.Gen Cert.Chamfer Idealize.ShloMosaic Idealize.ShloMosaic.ValueIdx

/-- Row `r` of a block of 512 points: its three coordinates. -/
abbrev rowOf (x : Vec Ideal S1x512x3 .f32) (r : Fin 512) : Fin 3 → EReal := fun k => x (ix3 (0 : Fin 1) r k)

/-! ## Re-layings, broadcasts and reductions read at an index -/

/-- A vector of 512 re-laid as a 1 × 1 × 512 block reads, at (0, 0, r), the vector at r. -/
private theorem cast1_3_apply (x : FVec Ideal S512 .f32) (r : Fin 512) :
    shapeCast S1x1x512 x shapeCasts_S512_S1x1x512 (ix3 (0 : Fin 1) (0 : Fin 1) r) = x (ix1 r) := by
  refine shapeCast_apply x _ _ _ ?_
  rw [Shape.rowMajor_val_three, Shape.rowMajor_val_one]
  show r.val = (0 * 1 + 0) * 512 + r.val
  omega

/-- A 1 × 1 × 512 block re-laid as a vector of 512 reads, at r, the block at (0, 0, r). -/
private theorem cast3_1_apply (x : FVec Ideal S1x1x512 .f32) (r : Fin 512) :
    shapeCast S512 x shapeCasts_S1x1x512_S512 (ix1 r) = x (ix3 (0 : Fin 1) (0 : Fin 1) r) := by
  refine shapeCast_apply x _ _ _ ?_
  rw [Shape.rowMajor_val_three, Shape.rowMajor_val_one]
  show (0 * 1 + 0) * 512 + r.val = r.val
  omega

/-- A minimum reduction over one axis, started from a word that reads +∞, is at each kept index the least value of
    the source over that axis's coordinates: the fold of `min` from ⊤ is the infimum. -/
private theorem minRed_single {s t : Shape} {a : Fin s.rank} (src : FVec Ideal s .f32) (acc : BitVec FTy.f32.bits)
    (h : s.Reduces [a] t) (hφ : FKind.Formats .f32) (hacc : acc = FKind.minimumf.neutral .f32 hφ)
    (htop : Ideal.ofBits .f32 acc = ⊤) (j : t.Idx) :
    multiReduction .minimumf [a] t src acc h hφ hacc j
      = (Finset.univ : Finset (Fin (s.size a))).inf fun k => src (h.lift j k) := by
  classical
  rw [multiReduction_minimumf_eq_fold, h.fold_filter_drop_single]
  show Finset.fold min (Ideal.ofBits .f32 acc) _ _ = _
  rw [htop]
  rfl

/-- A 1 × 512 × 3 block with its unit axis dropped reads, at (r, k), the block at (0, r, k). -/
private theorem cast_rows_apply (x : Vec Ideal S1x512x3 .f32) (r : Fin 512) (k : Fin 3) :
    shapeCast S512x3 x shapeCasts_S1x512x3_S512x3 (ix2 r k) = x (ix3 (0 : Fin 1) r k) :=
  shapeCast_1ab_ab_apply x _ r k

/-- The sum along the three coordinates of an entrywise product of two 512 × 3 blocks, at row r. -/
private theorem sumProd_apply (y z : FVec Ideal S512x3 .f32) (r : Fin 512) (hφ : FKind.Formats .f32)
    (hacc : (0x00000000#32 : BitVec FTy.f32.bits) = FKind.add.neutral .f32 hφ) :
    multiReduction .add [1] S512 (mulf y z) 0x00000000#32 reduces_S512x3_S512 hφ hacc (ix1 r)
      = ∑ k : Fin 3, y (ix2 r k) * z (ix2 r k) := by
  refine (Ideal.multiReduction_add_single _ _ _ _ _ _).trans ?_
  refine Finset.sum_congr rfl fun k _ => ?_
  rw [mulf_apply]
  have e : reduces_S512x3_S512.lift (ix1 r) k = ix2 r k := by
    funext a
    match a with
    | ⟨0, _⟩ => rfl
    | ⟨1, _⟩ => rfl
  rw [e]
  rfl

/-- A vector of 512 stood up as a column and repeated along the rows reads, at (r, s), the vector at r. -/
private theorem bcol_apply (v : FVec Ideal S512 .f32) (r s : Fin 512) :
    broadcastTo S512x512 (shapeCast S512x1 v shapeCasts_S512_S512x1) broadcasts_S512x1_S512x512 (ix2 r s) = v (ix1 r) := by
  refine (broadcastTo_apply _ _ (ix2 r s) (ix2 r (0 : Fin 1)) fun a => ?_).trans ?_
  · match a with
    | ⟨0, _⟩ => rfl
    | ⟨1, _⟩ => rfl
  · refine shapeCast_apply v _ _ _ ?_
    rw [Shape.rowMajor_val_two, Shape.rowMajor_val_one]
    show r.val = r.val * 1 + 0
    omega

/-- A vector of 512 laid as a row and repeated down the columns reads, at (r, s), the vector at s. -/
private theorem brow_apply (v : FVec Ideal S512 .f32) (r s : Fin 512) :
    broadcastTo S512x512 (shapeCast S1x512 v shapeCasts_S512_S1x512) broadcasts_S1x512_S512x512 (ix2 r s) = v (ix1 s) :=
  (broadcastTo_1b_ab_apply _ _ r s).trans (shapeCast_a_1a_apply v _ 0 s)

/-! ## The product of the two blocks, contracted over the three coordinates -/

/-- The contraction's dimension numbers: axis 1 of both operands is contracted, the result's axes are the first
    operand's axis 0 then the second operand's axis 0. -/
private abbrev D := dot_S512x3_S512x3_S512x512_1_1_0_0_n_n

/-- The first operand's index at result (r, s) and contraction position q is (r, q) … -/
private theorem lhs_0 (j : S512x512.Idx) (q : D.contr.Idx) : (D.lhsIdx j q 0).val = (j 0).val := by
  unfold DotDims.lhsIdx
  rw [dif_neg (show ¬(0 : Fin S512x3.rank) ∈ D.lhsBatch by decide),
    dif_pos (show (0 : Fin S512x3.rank) ∈ D.lhsNonContracting by decide)]
  rfl
private theorem lhs_1 (j : S512x512.Idx) (q : D.contr.Idx) : (D.lhsIdx j q 1).val = (q ⟨0, by decide⟩).val :=
  D.lhsIdx_val_of_single rfl j q
/-- … and the second operand's is (s, q). -/
private theorem rhs_0 (j : S512x512.Idx) (q : D.contr.Idx) : (D.rhsIdx j q 0).val = (j 1).val := by
  unfold DotDims.rhsIdx
  rw [dif_neg (show ¬(0 : Fin S512x3.rank) ∈ D.rhsBatch by decide),
    dif_pos (show (0 : Fin S512x3.rank) ∈ D.rhsNonContracting by decide)]
  rfl
private theorem rhs_1 (j : S512x512.Idx) (q : D.contr.Idx) : (D.rhsIdx j q 1).val = (q ⟨0, by decide⟩).val :=
  D.rhsIdx_val_of_single rfl j q

/-- So the product accumulated into zero reads, at (r, s), the inner product of row r of the first block and
    row s of the second. -/
private theorem matmul_at (y z : FVec Ideal S512x3 .f32) (r s : Fin 512) :
    matmul D none y z (constant S512x512 .f32 0x00000000#32) (ix2 r s) = ∑ k : Fin 3, y (ix2 r k) * z (ix2 s k) := by
  simp only [matmul]
  rw [Ideal.matmul_constant_zero_apply, ← Equiv.sum_comp (contrEquiv1 D 3 rfl rfl).symm]
  refine Finset.sum_congr rfl fun k _ => ?_
  have hk := contrEquiv1_symm_val D 3 rfl rfl k
  have el : D.lhsIdx (ix2 r s) ((contrEquiv1 D 3 rfl rfl).symm k) = ix2 r k := funext fun a => Fin.ext (by
    match a with
    | ⟨0, _⟩ => exact lhs_0 _ _
    | ⟨1, _⟩ => exact (lhs_1 _ _).trans hk)
  have er : D.rhsIdx (ix2 r s) ((contrEquiv1 D 3 rfl rfl).symm k) = ix2 s k := funext fun a => Fin.ext (by
    match a with
    | ⟨0, _⟩ => exact rhs_0 _ _
    | ⟨1, _⟩ => exact (rhs_1 _ _).trans hk)
  rw [el, er]

/-! ## The payloads -/

/-- The tile of distances at (r, s): the distance between row `r` of the first block and row `s` of the second. -/
theorem pay5_apply (x0 x1 : Vec Ideal S1x512x3 .f32) (r s : Fin 512) :
    k0_pay5 (F := Ideal) x0 x1 (ix2 r s) = pairDist zeroW twoW (rowOf x0 r) (rowOf x1 s) := by
  unfold k0_pay5 pairDist
  rw [maximumf_apply, subf_apply, addf_apply, mulf_apply, bcol_apply, brow_apply]
  refine congrArg₂ max (congrArg₂ (· - ·) (congrArg₂ (· + ·) ?_ ?_) (congrArg₂ (· * ·) rfl ?_)) rfl
  · refine (sumProd_apply _ _ r _ _).trans (Finset.sum_congr rfl fun k _ => ?_)
    rw [cast_rows_apply]
  · refine (sumProd_apply _ _ s _ _).trans (Finset.sum_congr rfl fun k _ => ?_)
    rw [cast_rows_apply]
  · refine (matmul_at _ _ r s).trans (Finset.sum_congr rfl fun k _ => ?_)
    rw [cast_rows_apply, cast_rows_apply]

/-- The row-wise running minimum at r: what was there, lowered by the least value of row `r` of the tile. -/
theorem pay6_apply (x0 x1 : Vec Ideal S1x512x3 .f32) (base : Vec Ideal S1x1x512 .f32) (r : Fin 512) :
    k0_pay6 (F := Ideal) x0 x1 base (ix1 r)
      = min (base (ix3 (0 : Fin 1) (0 : Fin 1) r)) ((Finset.univ : Finset (Fin 512)).inf fun s => pairDist zeroW twoW (rowOf x0 r) (rowOf x1 s)) := by
  unfold k0_pay6
  rw [minimumf_apply, cast3_1_apply]
  refine congrArg (min _) ((minRed_single _ _ _ _ _ infW_eq_top (ix1 r)).trans ?_)
  refine Finset.inf_congr rfl fun s _ => ?_
  have e : reduces_S512x512_S512.lift (ix1 r) s = ix2 r s := by
    funext a
    match a with
    | ⟨0, _⟩ => rfl
    | ⟨1, _⟩ => rfl
  rw [e]
  exact pay5_apply x0 x1 r s

/-- Re-laid as a 1 × 1 × 512 block. -/
theorem pay1_apply (v30 : FVec Ideal S512 .f32) (r : Fin 512) :
    k0_pay1 (F := Ideal) v30 (ix3 (0 : Fin 1) (0 : Fin 1) r) = v30 (ix1 r) :=
  cast1_3_apply v30 r

/-- The column-wise running minimum at s: what was loaded, lowered by the least value of column `s` of the tile. -/
theorem pay2_apply (v26 : FVec Ideal S512x512 .f32) (v38 : Vec Ideal S1x1x512 .f32) (s : Fin 512) :
    k0_pay2 (F := Ideal) v26 v38 (ix3 (0 : Fin 1) (0 : Fin 1) s)
      = min (v38 (ix3 (0 : Fin 1) (0 : Fin 1) s)) ((Finset.univ : Finset (Fin 512)).inf fun r => v26 (ix2 r s)) := by
  unfold k0_pay2
  refine (cast1_3_apply _ s).trans ?_
  rw [minimumf_apply, cast3_1_apply]
  refine congrArg (min _) ((minRed_single v26 _ _ _ _ infW_eq_top (ix1 s)).trans ?_)
  refine Finset.inf_congr rfl fun r _ => congrArg v26 ?_
  funext a
  match a with
  | ⟨0, _⟩ => rfl
  | ⟨1, _⟩ => rfl

/-- The two blocks a restart stores are +∞ everywhere. -/
theorem pay3_apply (r : Fin 512) : k0_pay3 (F := Ideal) (ix3 (0 : Fin 1) (0 : Fin 1) r) = ⊤ := by
  show infW = ⊤
  exact infW_eq_top

theorem pay4_apply (j : Fin 4096) : k0_pay4 (F := Ideal) (ix3 (0 : Fin 1) (0 : Fin 1) j) = ⊤ := by
  show infW = ⊤
  exact infW_eq_top

end Cert.KernelIdeal.Nearest

end
-- ==== Proof.PointValue.lean ====
/-
  What one grid point makes of the two output blocks, entry by entry, on the extended reals.

  The first block's entry r becomes the smaller of what it was and the least distance from row r of the first tile
  to the second tile. The second block's entry in tile q at place s becomes, when q is the point's own tile of the
  second cloud, the smaller of what it was and the least distance from the first tile to row s of the second; in any
  other tile it stays.
-/
import proofs.«102571_j11012296147710_1_alg».proof.Proof.KernelIdealCases
import proofs.«102571_j11012296147710_1_alg».proof.Proof.Payloads

set_option maxRecDepth 16384

noncomputable section

namespace Cert.KernelIdeal.Nearest

open Cert.KernelIdeal Cert.KernelIdeal.Gen Cert.Chamfer Idealize.ShloMosaic Idealize.ShloMosaic.ValueIdx

/-- The rewritten slice starts at place 512 · (the point's tile of the second cloud) of the last axis, at 0 of the others. -/
private theorem off0 (i : grid0.Coords) : (k0_off1 i) (0 : Fin 3) = 0 := by rw [k0_off1_eq i]; rfl
private theorem off1 (i : grid0.Coords) : (k0_off1 i) (1 : Fin 3) = 0 := by rw [k0_off1_eq i]; rfl
private theorem off2 (i : grid0.Coords) : (k0_off1 i) (2 : Fin 3) = 512 * (i 2).val := by rw [k0_off1_eq i]; rfl

/-- Place `s` of the slice is place `s` of tile `q` of the block, when `q` is the point's tile. -/
private theorem slice_emb (i : grid0.Coords) (q : Fin 8) (hq : q.val = (i 2).val) (s : Fin 512) :
    (Body.sliceAt i).emb (ix3 (0 : Fin 1) (0 : Fin 1) s) = ix3 (0 : Fin 1) (0 : Fin 1) (tileIdx q s) := by
  funext a; apply Fin.ext
  match a with
  | ⟨0, _⟩ => show (k0_off1 i) (0 : Fin 3) + 1 * 0 = 0; rw [off0]
  | ⟨1, _⟩ => show (k0_off1 i) (1 : Fin 3) + 1 * 0 = 0; rw [off1]
  | ⟨2, _⟩ => show (k0_off1 i) (2 : Fin 3) + 1 * s.val = q.val * 512 + s.val; rw [off2]; omega

theorem newRow_apply (x0 x1 : Vec Ideal S1x512x3 .f32) (base : Vec Ideal S1x1x512 .f32) (r : Fin 512) :
    Body.newRow (F := Ideal) x0 x1 base (ix3 (0 : Fin 1) (0 : Fin 1) r)
      = min (base (ix3 (0 : Fin 1) (0 : Fin 1) r)) ((Finset.univ : Finset (Fin 512)).inf fun s => pairDist zeroW twoW (rowOf x0 r) (rowOf x1 s)) := by
  unfold Body.newRow
  rw [pay1_apply, pay6_apply]

/-- In the point's own tile of the second cloud (tile number = the point's third coordinate). -/
theorem newCol_apply_own (i : grid0.Coords) (x0 x1 : Vec Ideal S1x512x3 .f32) (base : Vec Ideal S1x1x4096 .f32)
    (q : Fin 8) (hq : q.val = (i 2).val) (s : Fin 512) :
    Body.newCol (F := Ideal) i x0 x1 base (ix3 (0 : Fin 1) (0 : Fin 1) (tileIdx q s))
      = min (base (ix3 (0 : Fin 1) (0 : Fin 1) (tileIdx q s))) ((Finset.univ : Finset (Fin 512)).inf fun r => pairDist zeroW twoW (rowOf x0 r) (rowOf x1 s)) := by
  unfold Body.newCol
  rw [← slice_emb i q hq s, Rect.overlay_emb, pay2_apply (k0_pay5 (F := Ideal) x0 x1) (View.ld base (Body.sliceAt i)) s]
  exact congrArg (min _) (Finset.inf_congr rfl fun r _ => pay5_apply x0 x1 r s)

/-- In any other tile. -/
theorem newCol_apply_other (i : grid0.Coords) (x0 x1 : Vec Ideal S1x512x3 .f32) (base : Vec Ideal S1x1x4096 .f32)
    (q : Fin 8) (hq : q.val ≠ (i 2).val) (s : Fin 512) :
    Body.newCol (F := Ideal) i x0 x1 base (ix3 (0 : Fin 1) (0 : Fin 1) (tileIdx q s)) = base (ix3 (0 : Fin 1) (0 : Fin 1) (tileIdx q s)) := by
  unfold Body.newCol
  refine Rect.overlay_of_not_mem _ _ _ fun hmem => ?_
  have h2 := (Rect.mem_set_unit.mp hmem) (2 : Fin 3)
  rw [off2] at h2
  have hv : ((ix3 (0 : Fin 1) (0 : Fin 1) (tileIdx q s) : S1x1x4096.Idx) (2 : Fin 3) : ℕ) = q.val * 512 + s.val := rfl
  have hs : S1x1x512.size (2 : Fin 3) = 512 := rfl
  rw [hv, hs] at h2
  have := s.isLt
  omega

end Cert.KernelIdeal.Nearest

end
-- ==== Proof.Blocks.lean ====
/-
  The two input windows' blocks at a grid point, read at an index of the argument arrays.

  Points are numbered row-major, t = 64 b + 8 ni + mi. The first window's block at t is rows ni·512 … ni·512 + 511 of
  batch b of the first cloud; the second window's is rows mi·512 … of batch b of the second cloud.
-/
import proofs.«102571_j11012296147710_1_alg».proof.Proof.Gen.KernelIdeal.Frame
import proofs.«102571_j11012296147710_1_alg».proof.Proof.Spec
import Idealize.ShloMosaic.Lib.ValueIdx
import Idealize.ShloMosaic.Lib.Pipeline.Value

set_option maxRecDepth 16384

noncomputable section

namespace Cert.KernelIdeal.Nearest

open Cert.KernelIdeal Cert.KernelIdeal.Gen Cert.Chamfer Idealize.ShloMosaic Idealize.ShloMosaic.ValueIdx Idealize.ShloMosaic.TcCoe Idealize.SL.Sem

variable (m : (ℓ : Loc nD τ sig) → Buf (Elt Ideal) ℓ)

/-- The two clouds of core `c` as the call finds them: batch, point, coordinate. -/
def cloud1 (c : Dev nD) : Fin 8 → Fin 4096 → Fin 3 → EReal :=
  fun b n k => (V m c main_arg0 : S8x4096x3.Idx → EReal) (ix3 b n k)
def cloud2 (c : Dev nD) : Fin 8 → Fin 4096 → Fin 3 → EReal :=
  fun b n k => (V m c main_arg1 : S8x4096x3.Idx → EReal) (ix3 b n k)

/-- The batch, the tile of the first cloud and the tile of the second cloud of the point numbered `t`. -/
def batchOf (t : Fin cfg0.N) : Fin 8 := ⟨t.val / 64, by have := lt_of_lt_of_eq t.isLt (show cfg0.N = 512 from N_0); omega⟩
def rowTileOf (t : Fin cfg0.N) : Fin 8 := ⟨t.val / 8 % 8, Nat.mod_lt _ (by decide)⟩
def colTileOf (t : Fin cfg0.N) : Fin 8 := ⟨t.val % 8, Nat.mod_lt _ (by decide)⟩

/-- The point's third grid coordinate is its tile of the second cloud. -/
theorem coords2 (t : Fin cfg0.N) : ((grid0.coords t) 2).val = t.val % 8 :=
  (by decide +kernel : ∀ t : Fin grid0.N, ((grid0.coords t) 2).val = t.val % 8) t

/-- The first window's block indices at every point: the batch, the tile of the first cloud, and zero on the coordinate axis. -/
private theorem idx_facts0 : ∀ t : Fin cfg0.N, win0_0.index t (0 : Fin 3) = t.val / 64
    ∧ win0_0.index t (1 : Fin 3) = t.val / 8 % 8 ∧ win0_0.index t (2 : Fin 3) = 0 :=
  (by decide +kernel : ∀ t : Fin grid0.N, win0_0.index t (0 : Fin 3) = t.val / 64
    ∧ win0_0.index t (1 : Fin 3) = t.val / 8 % 8 ∧ win0_0.index t (2 : Fin 3) = 0)

/-- The second window's block indices at every point: the batch, the tile of the second cloud, and zero on the coordinate axis. -/
private theorem idx_facts1 : ∀ t : Fin cfg0.N, win0_1.index t (0 : Fin 3) = t.val / 64
    ∧ win0_1.index t (1 : Fin 3) = t.val % 8 ∧ win0_1.index t (2 : Fin 3) = 0 :=
  (by decide +kernel : ∀ t : Fin grid0.N, win0_1.index t (0 : Fin 3) = t.val / 64
    ∧ win0_1.index t (1 : Fin 3) = t.val % 8 ∧ win0_1.index t (2 : Fin 3) = 0)

/-- Row `r`, coordinate `k` of the first window's block at `t`. -/
theorem iblk0_apply (c : Dev nD) (t : Fin cfg0.N) (r : Fin 512) (k : Fin 3) :
    (iblk m c 0 t : S1x512x3.Idx → EReal) (ix3 (0 : Fin 1) r k) = cloud1 m c (batchOf t) (tileIdx (rowTileOf t) r) k := by
  obtain ⟨e0, e1, e2⟩ := idx_facts0 t
  show V m c main_arg0 (((cfg0.win 0).blk t).view.emb (ix3 (0 : Fin 1) r k)) = V m c main_arg0 (ix3 (batchOf t) (tileIdx (rowTileOf t) r) k)
  congr 1
  funext a; apply Fin.ext
  match a with
  | ⟨0, _⟩ => show win0_0.index t (0 : Fin 3) * 1 + 1 * 0 = t.val / 64; omega
  | ⟨1, _⟩ => show win0_0.index t (1 : Fin 3) * 512 + 1 * r.val = t.val / 8 % 8 * 512 + r.val; omega
  | ⟨2, _⟩ => show win0_0.index t (2 : Fin 3) * 3 + 1 * k.val = k.val; omega

/-- Row `s`, coordinate `k` of the second window's block at `t`. -/
theorem iblk1_apply (c : Dev nD) (t : Fin cfg0.N) (s : Fin 512) (k : Fin 3) :
    (iblk m c 1 t : S1x512x3.Idx → EReal) (ix3 (0 : Fin 1) s k) = cloud2 m c (batchOf t) (tileIdx (colTileOf t) s) k := by
  obtain ⟨e0, e1, e2⟩ := idx_facts1 t
  show V m c main_arg1 (((cfg0.win 1).blk t).view.emb (ix3 (0 : Fin 1) s k)) = V m c main_arg1 (ix3 (batchOf t) (tileIdx (colTileOf t) s) k)
  congr 1
  funext a; apply Fin.ext
  match a with
  | ⟨0, _⟩ => show win0_1.index t (0 : Fin 3) * 1 + 1 * 0 = t.val / 64; omega
  | ⟨1, _⟩ => show win0_1.index t (1 : Fin 3) * 512 + 1 * s.val = t.val % 8 * 512 + s.val; omega
  | ⟨2, _⟩ => show win0_1.index t (2 : Fin 3) * 3 + 1 * k.val = k.val; omega

end Cert.KernelIdeal.Nearest

end
-- ==== Proof.Invariant.lean ====
/-
  What the two output blocks hold after each grid point, in closed form.

  After the point numbered t = 64 b + 8 ni + mi the first block's entry r is the least distance from point
  ni·512 + r of the first cloud to the tiles 0 … mi of the second; the second block's entry in tile q at place s is the
  least distance to point q·512 + s of the second cloud from the tiles of the first cloud already paired with tile q:
  tiles 0 … ni when q ≤ mi, tiles 0 … ni − 1 otherwise. By induction on the point, one step being what the point makes
  of the blocks (PointValue) over the blocks read off the arrays (Blocks).
-/
import proofs.«102571_j11012296147710_1_alg».proof.Proof.KernelIdealBody
import proofs.«102571_j11012296147710_1_alg».proof.Proof.PointValue
import proofs.«102571_j11012296147710_1_alg».proof.Proof.Blocks

set_option maxRecDepth 16384

noncomputable section

namespace Cert.KernelIdeal.Nearest

open Cert.KernelIdeal Cert.KernelIdeal.Gen Cert.Chamfer Idealize.ShloMosaic Idealize.ShloMosaic.ValueIdx Idealize.ShloMosaic.TcCoe Idealize.SL.Sem

variable (m : (ℓ : Loc nD τ sig) → Buf (Elt Ideal) ℓ)

/-- Row `r` of the first window's block at `t` is point `r` of the point's tile of the first cloud. -/
private theorem rowOf_iblk0 (c : Dev nD) (t : Fin cfg0.N) (r : Fin 512) :
    rowOf (iblk m c 0 t) r = cloud1 m c (batchOf t) (tileIdx (rowTileOf t) r) :=
  funext fun k => iblk0_apply m c t r k

/-- Row `s` of the second window's block at `t` is point `s` of the point's tile of the second cloud. -/
private theorem rowOf_iblk1 (c : Dev nD) (t : Fin cfg0.N) (s : Fin 512) :
    rowOf (iblk m c 1 t) s = cloud2 m c (batchOf t) (tileIdx (colTileOf t) s) :=
  funext fun k => iblk1_apply m c t s k

/-- The least distance from row `r` of the first block to the second block is the point's tile's least value along
    the second cloud. -/
private theorem rowInf (c : Dev nD) (t : Fin cfg0.N) (r : Fin 512) :
    ((Finset.univ : Finset (Fin 512)).inf fun s => pairDist zeroW twoW (rowOf (iblk m c 0 t) r) (rowOf (iblk m c 1 t) s))
      = rowTileMin zeroW twoW (cloud1 m c) (cloud2 m c) (batchOf t) (rowTileOf t) r (colTileOf t) := by
  unfold rowTileMin Cert.Chamfer.dist
  refine Finset.inf_congr rfl fun s _ => ?_
  rw [rowOf_iblk0 m c t r, rowOf_iblk1 m c t s]

/-- The least distance from the first block to row `s` of the second block is the point's tile's least value along
    the first cloud. -/
private theorem colInf (c : Dev nD) (t : Fin cfg0.N) (s : Fin 512) :
    ((Finset.univ : Finset (Fin 512)).inf fun r => pairDist zeroW twoW (rowOf (iblk m c 0 t) r) (rowOf (iblk m c 1 t) s))
      = colTileMin zeroW twoW (cloud1 m c) (cloud2 m c) (batchOf t) (colTileOf t) s (rowTileOf t) := by
  unfold colTileMin Cert.Chamfer.dist
  refine Finset.inf_congr rfl fun r _ => ?_
  rw [rowOf_iblk0 m c t r, rowOf_iblk1 m c t s]

/-- The first block after the point numbered `n`, by induction on `n`: a point that starts a row of tiles lowers +∞
    by its tile's least value, any other lowers what the point before left. -/
private theorem outs_row_aux (c : Dev nD) (r : Fin 512) : ∀ (n : ℕ) (hn : n < cfg0.N),
    (Body.outsAt m c n hn).1 (ix3 (0 : Fin 1) (0 : Fin 1) r)
      = upTo (n % 8) (rowTileMin zeroW twoW (cloud1 m c) (cloud2 m c) (batchOf ⟨n, hn⟩) (rowTileOf ⟨n, hn⟩) r) := by
  intro n
  induction n using Nat.strong_induction_on with
  | _ n ih =>
    intro hn
    have hN : n < 512 := lt_of_lt_of_eq hn (show cfg0.N = 512 from N_0)
    rw [Body.outsAt_eq m c ⟨n, hn⟩]
    dsimp only
    rw [newRow_apply (iblk m c 0 ⟨n, hn⟩) (iblk m c 1 ⟨n, hn⟩)
      (if n % 8 = 0 then k0_pay3 (F := Ideal) else (Body.outsAt m c (n - 1) (Nat.lt_of_le_of_lt (Nat.sub_le _ _) hn)).1) r,
      rowInf m c ⟨n, hn⟩ r]
    by_cases h0 : n % 8 = 0
    · rw [if_pos h0, pay3_apply r, h0, upTo_zero]
      have hc : colTileOf ⟨n, hn⟩ = 0 := Fin.ext h0
      rw [hc]
    · rw [if_neg h0, ih (n - 1) (by omega) (Nat.lt_of_le_of_lt (Nat.sub_le _ _) hn)]
      have hb : batchOf ⟨n - 1, Nat.lt_of_le_of_lt (Nat.sub_le _ _) hn⟩ = batchOf ⟨n, hn⟩ :=
        Fin.ext (by show (n - 1) / 64 = n / 64; omega)
      have hr : rowTileOf ⟨n - 1, Nat.lt_of_le_of_lt (Nat.sub_le _ _) hn⟩ = rowTileOf ⟨n, hn⟩ :=
        Fin.ext (by show (n - 1) / 8 % 8 = n / 8 % 8; omega)
      obtain ⟨k, hk⟩ : ∃ k, n % 8 = k + 1 := ⟨n % 8 - 1, by omega⟩
      have hk' : (n - 1) % 8 = k := by omega
      have hc : colTileOf ⟨n, hn⟩ = ⟨k + 1, by omega⟩ := Fin.ext hk
      rw [hb, hr, hk', hk, upTo_succ k (by omega), hc]

/-- What the second block's entry in tile `q` holds when the point numbered `n` begins: the tiles before the point's own
    have already met the point's tile of the first cloud, the others not yet. -/
private theorem col_base (c : Dev nD) (q : Fin 8) (s : Fin 512) (n : ℕ) (hn : n < cfg0.N) (hn' : n - 1 < cfg0.N)
    (ih : ¬n % 64 = 0 → (Body.outsAt m c (n - 1) hn').2 (ix3 (0 : Fin 1) (0 : Fin 1) (tileIdx q s))
      = before (if q.val ≤ (n - 1) % 8 then (n - 1) / 8 % 8 + 1 else (n - 1) / 8 % 8)
          (colTileMin zeroW twoW (cloud1 m c) (cloud2 m c) (batchOf ⟨n - 1, hn'⟩) q s)) :
    (if n % 64 = 0 then k0_pay4 (F := Ideal) else (Body.outsAt m c (n - 1) hn').2) (ix3 (0 : Fin 1) (0 : Fin 1) (tileIdx q s))
      = before (if q.val < n % 8 then n / 8 % 8 + 1 else n / 8 % 8)
          (colTileMin zeroW twoW (cloud1 m c) (cloud2 m c) (batchOf ⟨n, hn⟩) q s) := by
  have hN : n < 512 := lt_of_lt_of_eq hn (show cfg0.N = 512 from N_0)
  have hq8 := q.isLt
  by_cases h1 : n % 64 = 0
  · rw [if_pos h1, pay4_apply (tileIdx q s), if_neg (by omega : ¬q.val < n % 8), (by omega : n / 8 % 8 = 0), before_zero]
  · rw [if_neg h1, ih h1]
    have hb : batchOf ⟨n - 1, hn'⟩ = batchOf ⟨n, hn⟩ := Fin.ext (by show (n - 1) / 64 = n / 64; omega)
    rw [hb]
    congr 1
    split_ifs <;> omega

/-- The second block after the point numbered `n`, by induction on `n`. -/
private theorem outs_col_aux (c : Dev nD) (q : Fin 8) (s : Fin 512) : ∀ (n : ℕ) (hn : n < cfg0.N),
    (Body.outsAt m c n hn).2 (ix3 (0 : Fin 1) (0 : Fin 1) (tileIdx q s))
      = before (if q.val ≤ n % 8 then n / 8 % 8 + 1 else n / 8 % 8)
          (colTileMin zeroW twoW (cloud1 m c) (cloud2 m c) (batchOf ⟨n, hn⟩) q s) := by
  intro n
  induction n using Nat.strong_induction_on with
  | _ n ih =>
    intro hn
    have hN : n < 512 := lt_of_lt_of_eq hn (show cfg0.N = 512 from N_0)
    have hq8 := q.isLt
    have hn' : n - 1 < cfg0.N := Nat.lt_of_le_of_lt (Nat.sub_le _ _) hn
    have hbase := col_base m c q s n hn hn' (fun h1 => ih (n - 1) (by omega) hn')
    rw [Body.outsAt_eq m c ⟨n, hn⟩]
    dsimp only
    by_cases hq : q.val = n % 8
    · rw [newCol_apply_own (grid0.coords ⟨n, hn⟩) (iblk m c 0 ⟨n, hn⟩) (iblk m c 1 ⟨n, hn⟩)
        (if n % 64 = 0 then k0_pay4 (F := Ideal) else (Body.outsAt m c (n - 1) hn').2) q (by rw [coords2]; exact hq) s,
        hbase, colInf m c ⟨n, hn⟩ s]
      have hc : colTileOf ⟨n, hn⟩ = q := Fin.ext hq.symm
      rw [hc, if_neg (by omega : ¬q.val < n % 8), if_pos (by omega : q.val ≤ n % 8), before_succ (n / 8 % 8) (by omega)]
      rfl
    · rw [newCol_apply_other (grid0.coords ⟨n, hn⟩) (iblk m c 0 ⟨n, hn⟩) (iblk m c 1 ⟨n, hn⟩)
        (if n % 64 = 0 then k0_pay4 (F := Ideal) else (Body.outsAt m c (n - 1) hn').2) q (by rw [coords2]; exact hq) s,
        hbase]
      congr 1
      split_ifs <;> omega

theorem outs_row (c : Dev nD) (t : Fin cfg0.N) (r : Fin 512) :
    (Body.outsAt m c t.val t.isLt).1 (ix3 (0 : Fin 1) (0 : Fin 1) r)
      = upTo (t.val % 8) (rowTileMin zeroW twoW (cloud1 m c) (cloud2 m c) (batchOf t) (rowTileOf t) r) := by
  obtain ⟨n, hn⟩ := t
  exact outs_row_aux m c r n hn

theorem outs_col (c : Dev nD) (t : Fin cfg0.N) (q : Fin 8) (s : Fin 512) :
    (Body.outsAt m c t.val t.isLt).2 (ix3 (0 : Fin 1) (0 : Fin 1) (tileIdx q s))
      = before (if q.val ≤ t.val % 8 then t.val / 8 % 8 + 1 else t.val / 8 % 8)
          (colTileMin zeroW twoW (cloud1 m c) (cloud2 m c) (batchOf t) q s) := by
  obtain ⟨n, hn⟩ := t
  exact outs_col_aux m c q s n hn

end Cert.KernelIdeal.Nearest

end
-- ==== Proof.Final.lean ====
/-
  The two output arrays after the call.

  The first output's block is written back after each sweep over the second cloud's tiles (points with t % 8 = 7), when
  its entries are the least distances to the whole second cloud; the second output's block after each batch (points
  with t % 64 = 63), when its entries are the least distances to the whole first cloud. The written-back blocks tile
  the two arrays, so the arrays end holding `nearest1` and `nearest2` of the two clouds.
-/
import proofs.«102571_j11012296147710_1_alg».proof.Proof.Invariant

set_option maxRecDepth 16384

noncomputable section

namespace Cert.KernelIdeal.Nearest

open Cert.KernelIdeal Cert.KernelIdeal.Gen Cert.Chamfer Idealize.ShloMosaic Idealize.ShloMosaic.ValueIdx Idealize.ShloMosaic.TcCoe Idealize.SL.Sem

variable (m : (ℓ : Loc nD τ sig) → Buf (Elt Ideal) ℓ)

/-- For each point of the first cloud the least distance to the second, laid out batch × 1 × point. -/
def out1 (c : Dev nD) : S8x1x4096.Idx → EReal :=
  fun i => nearest1 zeroW twoW (cloud1 m c) (cloud2 m c) (i 0) (i 2)

/-- For each point of the second cloud the least distance to the first, laid out batch × 1 × point. -/
def out2 (c : Dev nD) : S8x1x4096.Idx → EReal :=
  fun i => nearest2 zeroW twoW (cloud1 m c) (cloud2 m c) (i 0) (i 2)

/-- The first output window's block indices at the point numbered t: batch, 0, tile of the first cloud. -/
private theorem idxF2 : ∀ t : Fin cfg0.N, win0_2.index t (0 : Fin 3) = t.val / 64 ∧ win0_2.index t (1 : Fin 3) = 0 ∧ win0_2.index t (2 : Fin 3) = t.val / 8 % 8 :=
  (by decide +kernel : ∀ t : Fin grid0.N, win0_2.index t (0 : Fin 3) = t.val / 64 ∧ win0_2.index t (1 : Fin 3) = 0 ∧ win0_2.index t (2 : Fin 3) = t.val / 8 % 8)

/-- The second output window's block indices at the point numbered t: batch, 0, 0. -/
private theorem idxF3 : ∀ t : Fin cfg0.N, win0_3.index t (0 : Fin 3) = t.val / 64 ∧ win0_3.index t (1 : Fin 3) = 0 ∧ win0_3.index t (2 : Fin 3) = 0 :=
  (by decide +kernel : ∀ t : Fin grid0.N, win0_3.index t (0 : Fin 3) = t.val / 64 ∧ win0_3.index t (1 : Fin 3) = 0 ∧ win0_3.index t (2 : Fin 3) = 0)

private theorem mem_blk2 (t : Fin cfg0.N) (i : S8x1x4096.Idx) :
    i ∈ ((cfg0.win 2).blk t).view.set ↔ ∀ a : Fin 3, win0_2.index t a * S1x1x512.size a ≤ (i a).val ∧ (i a).val < win0_2.index t a * S1x1x512.size a + S1x1x512.size a := by
  show i ∈ ((View.whole main_v0_0).slice (win0_2.rect t)).set ↔ _
  rw [View.set_slice_whole, Rect.mem_set_unit]
  exact Iff.rfl

private theorem mem_blk3 (t : Fin cfg0.N) (i : S8x1x4096.Idx) :
    i ∈ ((cfg0.win 3).blk t).view.set ↔ ∀ a : Fin 3, win0_3.index t a * S1x1x4096.size a ≤ (i a).val ∧ (i a).val < win0_3.index t a * S1x1x4096.size a + S1x1x4096.size a := by
  show i ∈ ((View.whole main_v0_1).slice (win0_3.rect t)).set ↔ _
  rw [View.set_slice_whole, Rect.mem_set_unit]
  exact Iff.rfl

/-- Place r of the first output's block at t sits at batch t / 64, position (t / 8 % 8) · 512 + r of the array. -/
private theorem emb2 (t : Fin cfg0.N) (r : Fin 512) :
    ((cfg0.win 2).blk t).view.emb (ix3 (0 : Fin 1) (0 : Fin 1) r) = (ix3 (batchOf t) (0 : Fin 1) (tileIdx (rowTileOf t) r) : S8x1x4096.Idx) := by
  obtain ⟨e0, e1, e2⟩ := idxF2 t
  funext a; apply Fin.ext
  match a with
  | ⟨0, _⟩ => show win0_2.index t (0 : Fin 3) * 1 + 1 * 0 = t.val / 64; omega
  | ⟨1, _⟩ => show win0_2.index t (1 : Fin 3) * 1 + 1 * 0 = 0; omega
  | ⟨2, _⟩ => show win0_2.index t (2 : Fin 3) * 512 + 1 * r.val = (t.val / 8 % 8) * 512 + r.val; omega

/-- Place j of the second output's block at t sits at batch t / 64, position j of the array. -/
private theorem emb3 (t : Fin cfg0.N) (j : Fin 4096) :
    ((cfg0.win 3).blk t).view.emb (ix3 (0 : Fin 1) (0 : Fin 1) j) = (ix3 (batchOf t) (0 : Fin 1) j : S8x1x4096.Idx) := by
  obtain ⟨e0, e1, e2⟩ := idxF3 t
  funext a; apply Fin.ext
  match a with
  | ⟨0, _⟩ => show win0_3.index t (0 : Fin 3) * 1 + 1 * 0 = t.val / 64; omega
  | ⟨1, _⟩ => show win0_3.index t (1 : Fin 3) * 1 + 1 * 0 = 0; omega
  | ⟨2, _⟩ => show win0_3.index t (2 : Fin 3) * 4096 + 1 * j.val = j.val; omega

/-- What a point that ends a sweep over the second cloud's tiles writes back is its block of out1. -/
private theorem flushed2_eq (c : Dev nD) (t : Fin cfg0.N) (ht : (cfg0.win 2).flush t = true) :
    (Body.dats m 0 c).flushed 2 t = ((cfg0.win 2).blk t).view.read (Elt Ideal) (out1 m c) := by
  show (cfg0.win 2).cut (grid0.coords t) ((Body.dats m 0 c).after 2 t) = _
  rw [Body.after2]
  have hmod : t.val % 8 = 7 := (flush0_2 t).1 ht
  have key : ∀ y : S1x1x512.Idx, (Body.outsAt m c t.val t.isLt).1 y = out1 m c (((cfg0.win 2).blk t).view.emb y) := by
    intro y
    obtain ⟨a, b, r, rfl⟩ : ∃ (a : Fin 1) (b : Fin 1) (r : Fin 512), y = ix3 a b r := ⟨y 0, y 1, y 2, eq_ix3 y⟩
    obtain rfl : a = 0 := Subsingleton.elim _ _
    obtain rfl : b = 0 := Subsingleton.elim _ _
    rw [emb2, outs_row, hmod, upTo_seven]
    exact (nearest1_eq zeroW twoW (cloud1 m c) (cloud2 m c) (batchOf t) (rowTileOf t) r).symm
  funext y
  rw [View.read_apply]
  exact key y

/-- What a point that ends a batch writes back is its block of out2. -/
private theorem flushed3_eq (c : Dev nD) (t : Fin cfg0.N) (ht : (cfg0.win 3).flush t = true) :
    (Body.dats m 0 c).flushed 3 t = ((cfg0.win 3).blk t).view.read (Elt Ideal) (out2 m c) := by
  show (cfg0.win 3).cut (grid0.coords t) ((Body.dats m 0 c).after 3 t) = _
  rw [Body.after3]
  have hmod : t.val % 64 = 63 := (flush0_3 t).1 ht
  have key : ∀ y : S1x1x4096.Idx, (Body.outsAt m c t.val t.isLt).2 y = out2 m c (((cfg0.win 3).blk t).view.emb y) := by
    intro y
    obtain ⟨a, b, j, rfl⟩ : ∃ (a : Fin 1) (b : Fin 1) (j : Fin 4096), y = ix3 a b j := ⟨y 0, y 1, y 2, eq_ix3 y⟩
    obtain rfl : a = 0 := Subsingleton.elim _ _
    obtain rfl : b = 0 := Subsingleton.elim _ _
    obtain ⟨q, s, rfl⟩ := exists_tileIdx j
    have hq : q.val ≤ t.val % 8 := by have := q.isLt; omega
    have h8 : t.val / 8 % 8 + 1 = 8 := by omega
    rw [emb3, outs_col, if_pos hq, h8, before_eight]
    exact (nearest2_eq zeroW twoW (cloud1 m c) (cloud2 m c) (batchOf t) q s).symm
  funext y
  rw [View.read_apply]
  exact key y

/-- Every place of the first output array is in the block of a point that ends a sweep. -/
private theorem cover2 (i : S8x1x4096.Idx) : ∃ t : Fin cfg0.N, (cfg0.win 2).flush t = true ∧ i ∈ ((cfg0.win 2).blk t).view.set := by
  have h0 : (i 0).val < 8 := (i 0).isLt
  have h1 : (i 1).val < 1 := (i 1).isLt
  have h2 : (i 2).val < 4096 := (i 2).isLt
  have hN : 64 * (i 0).val + 8 * ((i 2).val / 512) + 7 < cfg0.N := by have e : cfg0.N = 512 := N_0; rw [e]; omega
  refine ⟨⟨_, hN⟩, (flush0_2 _).2 (by show (64 * (i 0).val + 8 * ((i 2).val / 512) + 7) % 8 = 7; omega), ?_⟩
  obtain ⟨e0, e1, e2⟩ := idxF2 ⟨_, hN⟩
  have e0' : win0_2.index ⟨_, hN⟩ (0 : Fin 3) = (64 * (i 0).val + 8 * ((i 2).val / 512) + 7) / 64 := e0
  have e2' : win0_2.index ⟨_, hN⟩ (2 : Fin 3) = (64 * (i 0).val + 8 * ((i 2).val / 512) + 7) / 8 % 8 := e2
  rw [mem_blk2]
  intro a
  match a with
  | ⟨0, _⟩ => show win0_2.index ⟨_, hN⟩ (0 : Fin 3) * 1 ≤ (i 0).val ∧ (i 0).val < win0_2.index ⟨_, hN⟩ (0 : Fin 3) * 1 + 1; omega
  | ⟨1, _⟩ => show win0_2.index ⟨_, hN⟩ (1 : Fin 3) * 1 ≤ (i 1).val ∧ (i 1).val < win0_2.index ⟨_, hN⟩ (1 : Fin 3) * 1 + 1; omega
  | ⟨2, _⟩ => show win0_2.index ⟨_, hN⟩ (2 : Fin 3) * 512 ≤ (i 2).val ∧ (i 2).val < win0_2.index ⟨_, hN⟩ (2 : Fin 3) * 512 + 512; omega

/-- Every place of the second output array is in the block of a point that ends a batch. -/
private theorem cover3 (i : S8x1x4096.Idx) : ∃ t : Fin cfg0.N, (cfg0.win 3).flush t = true ∧ i ∈ ((cfg0.win 3).blk t).view.set := by
  have h0 : (i 0).val < 8 := (i 0).isLt
  have h1 : (i 1).val < 1 := (i 1).isLt
  have h2 : (i 2).val < 4096 := (i 2).isLt
  have hN : 64 * (i 0).val + 63 < cfg0.N := by have e : cfg0.N = 512 := N_0; rw [e]; omega
  refine ⟨⟨_, hN⟩, (flush0_3 _).2 (by show (64 * (i 0).val + 63) % 64 = 63; omega), ?_⟩
  obtain ⟨e0, e1, e2⟩ := idxF3 ⟨_, hN⟩
  have e0' : win0_3.index ⟨_, hN⟩ (0 : Fin 3) = (64 * (i 0).val + 63) / 64 := e0
  rw [mem_blk3]
  intro a
  match a with
  | ⟨0, _⟩ => show win0_3.index ⟨_, hN⟩ (0 : Fin 3) * 1 ≤ (i 0).val ∧ (i 0).val < win0_3.index ⟨_, hN⟩ (0 : Fin 3) * 1 + 1; omega
  | ⟨1, _⟩ => show win0_3.index ⟨_, hN⟩ (1 : Fin 3) * 1 ≤ (i 1).val ∧ (i 1).val < win0_3.index ⟨_, hN⟩ (1 : Fin 3) * 1 + 1; omega
  | ⟨2, _⟩ => show win0_3.index ⟨_, hN⟩ (2 : Fin 3) * 4096 ≤ (i 2).val ∧ (i 2).val < win0_3.index ⟨_, hN⟩ (2 : Fin 3) * 4096 + 4096; omega

theorem final2 (c : Dev nD) : ((Body.dats m 0 c).arrAt 2 cfg0.N : S8x1x4096.Idx → EReal) = out1 m c :=
  (Body.dats m 0 c).arrAt_eq_of_cover 2 (out1 m c) (fun t ht => flushed2_eq m c t ht) cover2

theorem final3 (c : Dev nD) : ((Body.dats m 0 c).arrAt 3 cfg0.N : S8x1x4096.Idx → EReal) = out2 m c :=
  (Body.dats m 0 c).arrAt_eq_of_cover 3 (out2 m c) (fun t ht => flushed3_eq m c t ht) cover3

end Cert.KernelIdeal.Nearest

end
-- ==== Proof.MeanTail.lean ====
/-
  What both programs do with the two arrays of least distances: the mean of the square roots of each (the sum of all
  8 × 4096 entries from zero, divided by 32768), the two means added and halved. It is one function of the two arrays,
  applied by both programs with the same literal words, and is never opened.
-/
import Idealize.ShloMosaic.PureOps
import Idealize.ShloMosaic.PureOps.Ideal

noncomputable section

namespace Cert.Chamfer

open Idealize.ShloMosaic

/-- The shape of an array of least distances (batch × point) and the shape of a single number. -/
abbrev SPts : Shape := ⟨2, ![8, 4096]⟩
abbrev SOne : Shape := ⟨0, ![]⟩

theorem hRed : SPts.ReducesTo [0, 1] SOne := by decide
theorem hOne : 0 < SOne.numel := by decide

/-- Half the sum of the two means of square roots. -/
def meanTail (d1 d2 : FVec Ideal SPts .f32) : FVec Ideal SOne .f32 :=
  mulf
    (addf
      (Host.divf (Host.reduceAdd (Host.sqrt d1) (constant SOne .f32 0x00000000#32) hRed hOne) (constant SOne .f32 0x47000000#32))
      (Host.divf (Host.reduceAdd (Host.sqrt d2) (constant SOne .f32 0x00000000#32) hRed hOne) (constant SOne .f32 0x47000000#32)))
    (constant SOne .f32 0x3F000000#32)

end Cert.Chamfer

end
-- ==== Proof.KernelValue.lean ====
/-
  The idealized kernel program's result.

  After the call the host re-lays the two output arrays as batch × point, and applies the shared tail (MeanTail) to
  them; so the program's one result is that tail of `nearest1` and `nearest2` of the two clouds.
-/
import proofs.«102571_j11012296147710_1_alg».proof.Proof.Final
import proofs.«102571_j11012296147710_1_alg».proof.Proof.MeanTail
import Idealize.ShloMosaic.Lib.StableHlo.Run

set_option maxRecDepth 16384

noncomputable section

namespace Cert.KernelIdeal.Nearest

open Cert.KernelIdeal Cert.KernelIdeal.Gen Cert.Chamfer Idealize.ShloMosaic Idealize.ShloMosaic.ValueIdx Idealize.ShloMosaic.TcCoe Idealize.SL.Sem

variable (m : (ℓ : Loc nD τ sig) → Buf (Elt Ideal) ℓ)

/-- The least distances from the first cloud's points, and from the second's, laid out batch × point. -/
def near1 (c : Dev nD) : FVec Ideal SPts .f32 := fun i => nearest1 zeroW twoW (cloud1 m c) (cloud2 m c) (i 0) (i 1)
def near2 (c : Dev nD) : FVec Ideal SPts .f32 := fun i => nearest2 zeroW twoW (cloud1 m c) (cloud2 m c) (i 0) (i 1)

/-- A batch × 1 × point array re-laid as batch × point reads, at a batch and a point, the entry of that batch and
    point: the two row-major positions agree. -/
private theorem relaid_apply (x : S8x1x4096.Idx → EReal) (h : S8x1x4096.ShapeCasts S8x4096) (i : S8x4096.Idx) :
    shapeCast S8x4096 x h i = x (ix3 (i 0 : Fin 8) (0 : Fin 1) (i 1 : Fin 4096)) := by
  refine shapeCast_apply x h i (ix3 (i 0 : Fin 8) (0 : Fin 1) (i 1 : Fin 4096)) ?_
  rw [Shape.rowMajor_val_three, Shape.rowMajor_val_two]
  show ((i 0).val * 1 + 0) * 4096 + (i 1).val = (i 0).val * 4096 + (i 1).val
  omega

/-- The two output arrays as the host operations find them after the call. -/
private theorem arr2 (c : Dev nD) :
    (Pipeline.withArrays spec0 c (V0 m c) (fun w => (Body.dats m 0 c).arrAt w cfg0.N) (Proc.devRef .tc main_v0_0)
      : S8x1x4096.Idx → EReal) = out1 m c :=
  (Pipeline.withArrays_arr spec0 launch0.win.arr_inj c _ _ 2).trans (final2 m c)
private theorem arr3 (c : Dev nD) :
    (Pipeline.withArrays spec0 c (V0 m c) (fun w => (Body.dats m 0 c).arrAt w cfg0.N) (Proc.devRef .tc main_v0_1)
      : S8x1x4096.Idx → EReal) = out2 m c :=
  (Pipeline.withArrays_arr spec0 launch0.win.arr_inj c _ _ 3).trans (final3 m c)

/-- The contents of the result buffer after the host operations that follow the call. -/
theorem tail_value (c : Dev nD) :
    (Pipeline.afterTail₀ cfgs (Body.dats m) 0 (V0 m) [hostOps1] c main_v10 : SOne.Idx → EReal) = meanTail (near1 m c) (near2 m c) := by
  unfold Pipeline.afterTail₀
  simp only [List.flatten_cons, List.flatten_nil, List.append_nil]
  show StableHlo.after hostOps1 _ (Proc.devRef .tc main_v10) = _
  after_results
  -- the chain of host operations is the shared tail, applied to the two re-laid arrays
  have key : ∀ A1 A2 : FVec Ideal SPts .f32, A1 = near1 m c → A2 = near2 m c →
      mulf (addf
        (Host.divf (Host.reduceAdd (Host.sqrt A1) (constant S_ .f32 0x00000000#32) reducesTo_S8x4096_S_d0_1 h_S_) (constant S_ .f32 0x47000000#32))
        (Host.divf (Host.reduceAdd (Host.sqrt A2) (constant S_ .f32 0x00000000#32) reducesTo_S8x4096_S_d0_1 h_S_) (constant S_ .f32 0x47000000#32)))
        (constant S_ .f32 0x3F000000#32) = meanTail (near1 m c) (near2 m c) := by
    intro A1 A2 h1 h2
    subst h1 h2
    rfl
  refine key _ _ ?_ ?_
  · funext i
    show shapeCast S8x4096 (Pipeline.withArrays spec0 c (V0 m c) (fun w => (Body.dats m 0 c).arrAt w cfg0.N) (Proc.devRef .tc main_v0_0) : S8x1x4096.Idx → EReal) shapeCasts_S8x1x4096_S8x4096 i = _
    rw [relaid_apply, arr2]
    rfl
  · funext i
    show shapeCast S8x4096 (Pipeline.withArrays spec0 c (V0 m c) (fun w => (Body.dats m 0 c).arrAt w cfg0.N) (Proc.devRef .tc main_v0_1) : S8x1x4096.Idx → EReal) shapeCasts_S8x1x4096_S8x4096 i = _
    rw [relaid_apply, arr3]
    rfl

/-- Every weakly fair execution of the idealized kernel program terminates with its result at the shared tail of the
    two arrays of least distances, its arguments unchanged. -/
theorem run_value (ρ : Dev nD → PrngReg) :
    θ_run defs (onTc (τ := τ) (main (F := Ideal))) ⟨m, fun _ => 0, ρ⟩ (fun r => ∀ c : Dev nD,
      (r.2.mem ((c.tc : Thread nD τ).loc main_v10) : SOne.Idx → EReal) = meanTail (near1 m c) (near2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  -- the result buffer is no array of the call, so it ends at the host operations' value; the two arguments are
  -- inputs of the call, which end at their contents at the call
  (θ_run defs _ _).mono (fun r h c =>
    ⟨((h c).2 main_v10 (Pipeline.mem_restRefs_of main_v10 rfl (by decide))).trans (tail_value m c),
     ((h c).1 0).trans (((Body.dats m 0 c).arrAt_in 0 rfl _).trans ((Body.A_eq m c 0).trans (V_main_arg0 m c))),
     ((h c).1 1).trans (((Body.dats m 0 c).arrAt_in 1 rfl _).trans ((Body.A_eq m c 1).trans (V_main_arg1 m c)))⟩)
    (Body.run_main (F := Ideal) m ρ)

end Cert.KernelIdeal.Nearest

end
-- ==== Proof.RefValue.lean ====
/-
  The reference program's result.

  Its two min-reductions, read at an index, are `nearest1` and `nearest2` of its two argument arrays (each a fold of
  `min` from +∞ over one axis of the array of distances, which the generated stage lemmas read entry by entry), and
  everything after them is the shared tail (MeanTail).
-/
import proofs.«102571_j11012296147710_1_alg».proof.Proof.Gen.ReferenceIdeal.Read
import proofs.«102571_j11012296147710_1_alg».proof.Proof.Spec
import proofs.«102571_j11012296147710_1_alg».proof.Proof.MeanTail
import Idealize.ShloMosaic.Lib.ValueIdx
import Idealize.ShloMosaic.PureOps.Ideal.Laws
import Idealize.ShloMosaic.PureOps.Reduce

set_option maxRecDepth 16384

noncomputable section

namespace Cert.ReferenceIdeal.RefValue

open Cert.ReferenceIdeal Cert.ReferenceIdeal.Gen Cert.Chamfer Idealize.ShloMosaic Idealize.ShloMosaic.ValueIdx Idealize.ShloMosaic.TcCoe Idealize.SL.Sem

/-- An argument array as a cloud: batch, point, coordinate. -/
def cloudOf (a : (⟨S8x4096x3, .f32⟩ : BufTy).Contents (Elt Ideal)) : Fin 8 → Fin 4096 → Fin 3 → EReal :=
  fun b n k => a (ix3 b n k)

/-- The squares' index under the two broadcasts of the first cloud's norms is (b, n, k). -/
private theorem idxA (b : Fin 8) (n m : Fin 4096) (k : Fin 3) :
    Read.idx_main_v1 (Read.idx_main_v5 (Read.idx_main_v7 (ix3 b n m))) k = ix3 b n k :=
  funext fun a => Fin.ext (by match a with | ⟨0, _⟩ => rfl | ⟨1, _⟩ => rfl | ⟨2, _⟩ => rfl)

/-- The squares' index under the two broadcasts of the second cloud's norms is (b, m, k). -/
private theorem idxB (b : Fin 8) (n m : Fin 4096) (k : Fin 3) :
    Read.idx_main_v3 (Read.idx_main_v6 (Read.idx_main_v8 (ix3 b n m))) k = ix3 b m k :=
  funext fun a => Fin.ext (by match a with | ⟨0, _⟩ => rfl | ⟨1, _⟩ => rfl | ⟨2, _⟩ => rfl)

/-- The inner product's left index at (b, n, m) is (b, n, k). -/
private theorem idxL (b : Fin 8) (n m : Fin 4096) (k : Fin 3) :
    Read.lidx_main_v4 (ix3 b n m) k = ix3 b n k :=
  funext fun a => Fin.ext (by match a with | ⟨0, _⟩ => rfl | ⟨1, _⟩ => rfl | ⟨2, _⟩ => rfl)

/-- The inner product's right index at (b, n, m) is (b, m, k). -/
private theorem idxR (b : Fin 8) (n m : Fin 4096) (k : Fin 3) :
    Read.ridx_main_v4 (ix3 b n m) k = ix3 b m k :=
  funext fun a => Fin.ext (by match a with | ⟨0, _⟩ => rfl | ⟨1, _⟩ => rfl | ⟨2, _⟩ => rfl)

/-- The array of distances at (b, n, m). -/
theorem dist_apply (a0 a1 : (⟨S8x4096x3, .f32⟩ : BufTy).Contents (Elt Ideal)) (b : Fin 8) (n m : Fin 4096) :
    Read.val_main_v14 (F := Ideal) a0 a1 (ix3 b n m) = dist zeroW twoW (cloudOf a0) (cloudOf a1) b n m := by
  rw [Read.val_main_v14_apply, Read.val_main_v12_apply, Read.val_main_v13_apply, Read.val_main_v9_apply,
    Read.val_main_v11_apply, Read.val_main_v7_apply, Read.val_main_v8_apply, Read.val_main_v10_apply,
    Read.val_main_v5_apply, Read.val_main_v6_apply, Read.val_main_v4_apply, Read.val_main_v1_apply,
    Read.val_main_v3_apply]
  simp only [Read.val_main_v0_apply, Read.val_main_v2_apply, Read.val_main_cst_apply, Read.val_main_cst_0_apply,
    Read.val_main_cst_1_apply, Read.val_main_cst_2_apply, idxA, idxB, idxL, idxR,
    Ideal.addf_def, Ideal.subf_def, Ideal.mulf_def, Ideal.maximumf_def, Ideal.ofBits_def, Ideal.ofBits_zero_f32, zero_add]
  rfl

/-- Result index (b, n) with coordinate m put back on the last axis is (b, n, m). -/
private theorem lift_last (h : S8x4096x4096.Reduces [2] S8x4096) (b : Fin 8) (n : Fin 4096) (m : Fin (S8x4096x4096.size 2)) :
    h.lift (ix2 b n) m = ix3 b n (⟨m.val, m.isLt⟩ : Fin 4096) := by
  funext c; apply Fin.ext
  fin_cases c <;> rfl

/-- Result index (b, m) with coordinate n put back on the middle axis is (b, n, m). -/
private theorem lift_mid (h : S8x4096x4096.Reduces [1] S8x4096) (b : Fin 8) (m : Fin 4096) (n : Fin (S8x4096x4096.size 1)) :
    h.lift (ix2 b m) n = ix3 b (⟨n.val, n.isLt⟩ : Fin 4096) m := by
  funext c; apply Fin.ext
  fin_cases c <;> rfl

/-- The first min-reduction at (b, n). -/
theorem near1_apply (a0 a1 : (⟨S8x4096x3, .f32⟩ : BufTy).Contents (Elt Ideal)) (i : SPts.Idx) :
    (Read.val_main_v15 (F := Ideal) a0 a1 : SPts.Idx → EReal) i = nearest1 zeroW twoW (cloudOf a0) (cloudOf a1) (i 0) (i 1) := by
  obtain ⟨b, n, rfl⟩ : ∃ b n, i = ix2 b n := ⟨i 0, i 1, eq_ix2 i⟩
  have h : S8x4096x4096.Reduces [2] S8x4096 := by decide
  have hf : (Read.val_main_v14 (F := Ideal) a0 a1 ∘ h.lift (ix2 b n))
      = fun m : Fin 4096 => dist zeroW twoW (cloudOf a0) (cloudOf a1) b n m := funext fun m => by
    show Read.val_main_v14 (F := Ideal) a0 a1 (h.lift (ix2 b n) m) = _
    rw [lift_last h b n m]
    exact dist_apply a0 a1 b n m
  have hi : Read.val_main_cst_3 (F := Ideal) (Shape.Idx.first h_S_) = (⊤ : EReal) := infW_eq_top
  unfold Read.val_main_v15
  rw [Host.reduce_eq_fold_single FloatOps.minimumf _ _ reducesTo_S8x4096x4096_S8x4096_d2 h h_S_, hf, hi]
  rfl

/-- The second min-reduction at (b, m). -/
theorem near2_apply (a0 a1 : (⟨S8x4096x3, .f32⟩ : BufTy).Contents (Elt Ideal)) (i : SPts.Idx) :
    (Read.val_main_v16 (F := Ideal) a0 a1 : SPts.Idx → EReal) i = nearest2 zeroW twoW (cloudOf a0) (cloudOf a1) (i 0) (i 1) := by
  obtain ⟨b, m, rfl⟩ : ∃ b m, i = ix2 b m := ⟨i 0, i 1, eq_ix2 i⟩
  have h : S8x4096x4096.Reduces [1] S8x4096 := by decide
  have hf : (Read.val_main_v14 (F := Ideal) a0 a1 ∘ h.lift (ix2 b m))
      = fun n : Fin 4096 => dist zeroW twoW (cloudOf a0) (cloudOf a1) b n m := funext fun n => by
    show Read.val_main_v14 (F := Ideal) a0 a1 (h.lift (ix2 b m) n) = _
    rw [lift_mid h b m n]
    exact dist_apply a0 a1 b n m
  have hi : Read.val_main_cst_4 (F := Ideal) (Shape.Idx.first h_S_) = (⊤ : EReal) := infW_eq_top
  unfold Read.val_main_v16
  rw [Host.reduce_eq_fold_single FloatOps.minimumf _ _ reducesTo_S8x4096x4096_S8x4096_d1 h h_S_, hf, hi]
  rfl

/-- The reference's result is the shared tail of the two. -/
theorem result_eq (a0 a1 : (⟨S8x4096x3, .f32⟩ : BufTy).Contents (Elt Ideal)) :
    (Read.val_main_v24 (F := Ideal) a0 a1 : SOne.Idx → EReal)
      = meanTail (fun i => nearest1 zeroW twoW (cloudOf a0) (cloudOf a1) (i 0) (i 1)) (fun i => nearest2 zeroW twoW (cloudOf a0) (cloudOf a1) (i 0) (i 1)) := by
  have e1 : (Read.val_main_v15 (F := Ideal) a0 a1 : SPts.Idx → EReal)
      = fun i => nearest1 zeroW twoW (cloudOf a0) (cloudOf a1) (i 0) (i 1) := funext fun i => near1_apply a0 a1 i
  have e2 : (Read.val_main_v16 (F := Ideal) a0 a1 : SPts.Idx → EReal)
      = fun i => nearest2 zeroW twoW (cloudOf a0) (cloudOf a1) (i 0) (i 1) := funext fun i => near2_apply a0 a1 i
  rw [← e1, ← e2]
  unfold Read.val_main_v24 Read.val_main_v23 Read.val_main_v19 Read.val_main_v22 Read.val_main_v18 Read.val_main_v21
    Read.val_main_v17 Read.val_main_v20 Read.val_main_cst_5 Read.val_main_cst_6 Read.val_main_cst_7 Read.val_main_cst_8
    Read.val_main_cst_9 meanTail
  generalize Read.val_main_v15 (F := Ideal) a0 a1 = d1
  generalize Read.val_main_v16 (F := Ideal) a0 a1 = d2
  rfl

end Cert.ReferenceIdeal.RefValue

end
-- ==== Proof.lean ====
/-
  Two programs compute, for two clouds of 8 × 4096 points of three coordinates, half the sum of two means: the mean over
  the first cloud's points of the square root of the least squared distance to the second cloud, and the same with
  the clouds exchanged. The squared distance between two points is taken as max(|u|² + |v|² − 2⟨u, v⟩, 0).

  The kernel pairs the clouds tile by tile (512 × 512 points at a grid point), keeping two running minima in its output
  blocks; the reference forms all 4096 × 4096 distances of a batch and reduces along each axis. On the extended reals
  both are the same least values, since `min` is associative, commutative and idempotent with +∞ neutral
  (Proof/Spec.lean); the tail after the minima is the same function in both (Proof/MeanTail.lean). No finiteness of
  the inputs is needed: the precondition is never opened.

  The kernel's frame and its run with the output arrays named are proved from the body's three cases
  (Proof/KernelIdealCases.lean, Proof/KernelIdealBody.lean; the word-level program's copies beside them); the value
  of its result in Proof/KernelValue.lean over Proof/Final.lean, Proof/Invariant.lean, Proof/PointValue.lean,
  Proof/Payloads.lean and Proof/Blocks.lean; the reference's in Proof/RefValue.lean.
-/
import proofs.«102571_j11012296147710_1_alg».proof.Defs
import proofs.«102571_j11012296147710_1_alg».proof.Proof.Gen.Kernel
import proofs.«102571_j11012296147710_1_alg».proof.Proof.Gen.KernelIdeal
import proofs.«102571_j11012296147710_1_alg».proof.Proof.Gen.ReferenceIdeal
import proofs.«102571_j11012296147710_1_alg».proof.Proof.Gen.Pre_finite_inputs
import proofs.«102571_j11012296147710_1_alg».proof.Proof.KernelBody
import proofs.«102571_j11012296147710_1_alg».proof.Proof.KernelValue
import proofs.«102571_j11012296147710_1_alg».proof.Proof.RefValue
import Idealize.ShloMosaic.Adequacy
import Idealize.ShloMosaic.Init

noncomputable section

namespace Cert.Proof

open Idealize.ShloMosaic Idealize.SL.Sem Cert.Chamfer

/-- The word-level kernel program runs and leaves its arguments as they were. -/
theorem frame_k : Cert.frame_Kernel := fun m ρ _ => Cert.Kernel.Body.frame m ρ

/-- So does the idealized one. -/
theorem frame_ki : Cert.frame_KernelIdeal := fun m ρ _ => Cert.KernelIdeal.Body.frame m ρ

/-- The reference is host operations only: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the two clouds both programs end with the shared tail of the same two arrays of least
    distances. -/
theorem algebraic : Cert.algebraic_KernelIdeal_ReferenceIdeal := by
  intro m ρ m' ρ' _ hagree
  refine ⟨fun c => meanTail (Cert.KernelIdeal.Nearest.near1 m c) (Cert.KernelIdeal.Nearest.near2 m c),
    Cert.KernelIdeal.Nearest.run_value m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v24_eq]
  refine (Cert.ReferenceIdeal.RefValue.result_eq _ _).trans ?_
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
